-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x32 .f32) (main_arg4 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S8192x4096 : Shape := ⟨2, ![8192, 4096]⟩
abbrev S1x4096 : Shape := ⟨2, ![1, 4096]⟩
abbrev S8192x32 : Shape := ⟨2, ![8192, 32]⟩
abbrev S1024x1024 : Shape := ⟨2, ![1024, 1024]⟩
abbrev S1024x32 : Shape := ⟨2, ![1024, 32]⟩
abbrev S2048x1024 : Shape := ⟨2, ![2048, 1024]⟩
abbrev S2048x32 : Shape := ⟨2, ![2048, 32]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S4096x32, .f32⟩
  | .hbm, ⟨5, _⟩ => ⟨S8192x4096, .f32⟩
  | .hbm, ⟨6, _⟩ => ⟨S1x4096, .f32⟩
  | .hbm, ⟨7, _⟩ => ⟨S8192x32, .f32⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S2048x1024, .f32⟩
  | .local _ .vmem, ⟨8, _⟩ => ⟨S2048x1024, .f32⟩
  | .local _ .vmem, ⟨9, _⟩ => ⟨S1024x1024, .f32⟩
  | .local _ .vmem, ⟨10, _⟩ => ⟨S1024x1024, .f32⟩
  | .local _ .vmem, ⟨11, _⟩ => ⟨S2048x32, .f32⟩
  | .local _ .vmem, ⟨12, _⟩ => ⟨S2048x32, .f32⟩
  | .local _ .vmem, ⟨13, _⟩ => ⟨S1024x32, .f32⟩
  | .local _ .vmem, ⟨14, _⟩ => ⟨S1024x32, .f32⟩
  | .local _ .vmem, ⟨15, _⟩ => ⟨S1x1024, .f32⟩
  | .local _ .vmem, ⟨16, _⟩ => ⟨S1x1024, .f32⟩
  | .local _ .vmem, ⟨17, _⟩ => ⟨S2048x1024, .f32⟩
  | .local _ .vmem, ⟨18, _⟩ => ⟨S2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  shapeCasts_S4096_S1x4096 : S4096.ShapeCasts S1x4096
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x1024_S1024x32_S1024x32_1_0_0_1_n_n_wf : DotDims.WF S1024x1024 S1024x32 S1024x32 [1] [0] [0] [1] [] []
  dot_S2048x1024_S1024x1024_S2048x1024_1_1_0_0_n_n_wf : DotDims.WF S2048x1024 S1024x1024 S2048x1024 [1] [1] [0] [0] [] []
  dot_S2048x32_S1024x32_S2048x1024_1_1_0_0_n_n_wf : DotDims.WF S2048x32 S1024x32 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S4096x32.size a
  hwx0_1 : ∀ i : grid0.Coords, EltTy.bits .f32 = 32 ∨ (Rect.block (s := S4096x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S8192x32.size a
  hwx1_2 : ∀ i : grid1.Coords, EltTy.bits .f32 = 32 ∨ (Rect.block (s := S8192x32) S2048x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S4096x32.size a
  hwx1_3 : ∀ i : grid1.Coords, EltTy.bits .f32 = 32 ∨ (Rect.block (s := S4096x32) S1024x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S8192x4096.size a
  hwx1_5 : ∀ i : grid1.Coords, EltTy.bits .f32 = 32 ∨ (Rect.block (s := S8192x4096) S2048x1024.size (cc1_transform_5 i) (hinb1_5 i)).WholeWords (EltTy.packing .f32)

variable [Facts₀]

def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S4096x32, .f32⟩
  | .hbm, ⟨5, _⟩ => ⟨S32x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  transposes_S4096x32_S32x4096_1_0 : S4096x32.Transposes [1, 0] S32x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.Xb.Shared.lean ====
/-
  The rank-32 projection kernel `xb = x · B` (the first of the two kernel regions): what its three control cases
  share. The grid is 8 row blocks by 4 blocks of the contracted axis; the body zeroes its accumulator where the
  contracted block is the first, adds one block product at every point, and copies the accumulator into the output
  block where the contracted block is the last. Here: a window's block at a grid point, read off the arrays as the
  region finds them; the two branch conditions in closed form over the linear point; where the output window is
  idle and where it is written back; the staging memrefs by name; and the region invariant's scratch spelt as a memref.
-/
import proofs.«107650_j28853590294649_1_alg».proof.Proof.Gen.Kernel.Launch
import proofs.«107650_j28853590294649_1_alg».proof.Proof.Gen.Kernel.Skeleton
import proofs.«107650_j28853590294649_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block of `B` is in its staging buffer at every point. -/
theorem before_b_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "The contracted block is the first": the reset's condition, from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "The contracted block is the last": the write-out's condition. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_b : ∀ t : Fin cfg0.N, cfg0.idle 1 (grid0.coords t) = false := by decide +kernel
/-- Where the contracted block is not the last the output window is idle and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- Where it is the last the body stores the output block. -/
theorem live_out : ∀ t : Fin cfg0.N, isLast (grid0.coords t) → cfg0.idle 2 (grid0.coords t) = false := by decide +kernel

/-! ## The memrefs the body is called with -/

abbrev msX (t : Fin cfg0.N) : Memref sig .tc .vmem S1024x1024 .f32 := win0_0.stage (cfg0.slots t 0)
abbrev hsX (t : Fin cfg0.N) : (msX t).IsWhole := hstage0_0 ((cfg0.slots t 0).cast nbuf0_0)
abbrev msB (t : Fin cfg0.N) : Memref sig .tc .vmem S1024x32 .f32 := win0_1.stage (cfg0.slots t 1)
abbrev hsB (t : Fin cfg0.N) : (msB t).IsWhole := hstage0_1 ((cfg0.slots t 1).cast nbuf0_1)
abbrev msO (t : Fin cfg0.N) : Memref sig .tc .vmem S1024x32 .f32 := win0_2.stage (cfg0.slots t 2)
abbrev hsO (t : Fin cfg0.N) : (msO t).IsWhole := hstage0_2 ((cfg0.slots t 2).cast nbuf0_2)
/-- The accumulator: a whole scoped buffer of the kernel's own. -/
abbrev accM : Memref sig .tc .vmem S1024x32 .f32 := Memref.whole cc0_scratch0
abbrev accV : View sig .tc .vmem S1024x32 .f32 := accM.view
/-- One staging buffer of the output window, through which its contents are stated. -/
abbrev outV : View sig .tc .vmem S1024x32 .f32 := (Memref.whole cc0_stg2_0 : Memref sig .tc .vmem S1024x32 .f32).view

/-- The scoped buffers that belong to the other kernel region (its staging buffers and its accumulator), each whole
    at some contents: this region never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped buffers no window stages, with the accumulator singled out as a memref owned at some contents, and
    the generator register: what the region hands the body before its first point. -/
theorem restInv_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.Kernel.Xb

end
-- ==== Proof.Kernel.Xb.CaseFirst.lean ====
/-
  The projection kernel's body where the contracted block is the FIRST and not the last: the accumulator, found at
  anything, is zeroed and then receives the block product; the output block is not touched. The body's triple on
  whole staging memrefs, with the pieces the accumulator ends with found by running the body.
-/
import proofs.«107650_j28853590294649_1_alg».proof.Proof.Kernel.Xb.Shared

set_option maxRecDepth 16384

noncomputable section

namespace Cert.Kernel.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces (last first) the body leaves in the accumulator where the contracted block is the first, with the
    triple: `x`'s and `B`'s blocks are read and kept, the output's buffer is handed back as found. -/
noncomputable def runFirst (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : isFirst i) (hc1 : ¬isLast i)
    (x0 : Vec F S1024x1024 .f32) (x1 : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, fun xi E K => ?run⟩
  case run =>
    simp only [cc0__xb_kernel_eq_skeleton]; unfold cc0__xb_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Xb

end
-- ==== Proof.Kernel.Xb.CaseMid.lean ====
/-
  The projection kernel's body where the contracted block is neither the first nor the last: the accumulator, at
  what the point before left, receives the block product; the output block is not touched.
-/
import proofs.«107650_j28853590294649_1_alg».proof.Proof.Kernel.Xb.CaseFirst

set_option maxRecDepth 16384

noncomputable section

namespace Cert.Kernel.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the accumulator at an inner contracted block, with the triple. -/
noncomputable def runMid (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : ¬isFirst i) (hc1 : ¬isLast i)
    (x0 : Vec F S1024x1024 .f32) (x1 : Vec F S1024x32 .f32) (xs : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, fun xi E K => ?run⟩
  case run =>
    simp only [cc0__xb_kernel_eq_skeleton]; unfold cc0__xb_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Xb

end
-- ==== Proof.Kernel.Xb.CaseLast.lean ====
/-
  The projection kernel's body where the contracted block is the LAST (and not the first): the accumulator, at what
  the point before left, receives the block product and is then copied whole into the output block.
-/
import proofs.«107650_j28853590294649_1_alg».proof.Proof.Kernel.Xb.CaseMid

set_option maxRecDepth 16384

noncomputable section

namespace Cert.Kernel.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block and in the accumulator at the last contracted block, with the triple. -/
noncomputable def runLast (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : ¬isFirst i) (hc1 : isLast i)
    (x0 : Vec F S1024x1024 .f32) (x1 : Vec F S1024x32 .f32) (xs : Vec F S1024x32 .f32) :
    Σ' (LO : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, ?_, fun E K => ?run⟩
  case run =>
    simp only [cc0__xb_kernel_eq_skeleton]; unfold cc0__xb_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Xb

end
-- ==== Proof.Kernel.Xb.Data.lean ====
/-
  The projection kernel region `xb = x · B`: what its accumulator and its output block hold after each grid point, the
  region's invariant between points, the proof data of its pipeline, and the body obligation.

  The accumulator after point `n` is defined by recursion on `n`: where the contracted block is the first it is what the
  first case leaves from the two input blocks alone; elsewhere it is what the inner (or the last) case leaves from the input
  blocks and the accumulator after point `n - 1`. The output block is stored only where the contracted block is the last,
  from the same three values; elsewhere the window is idle and its staging buffer is handed back as found.
  Between points the invariant holds the accumulator at exactly that value, beside the scoped buffers of the other region
  and the generator register, none of which the body touches.
-/
import proofs.«107650_j28853590294649_1_alg».proof.Proof.Kernel.Xb.CaseLast

set_option maxRecDepth 16384

noncomputable section

namespace Cert.Kernel.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole)

/-- The first case's stores into the accumulator tile it. -/
theorem cover_accFirst (hc0 : isFirst i) (hc1 : ¬isLast i) (x0 : Vec F S1024x1024 .f32) (x1 : Vec F S1024x32 .f32) (y : S1024x32.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x32.size (by sl_kernel_rfl) y
/-- What the first case leaves in the accumulator. -/
def accFirst (hc0 : isFirst i) (hc1 : ¬isLast i) (x0 : Vec F S1024x1024 .f32) (x1 : Vec F S1024x32 .f32) : Vec F S1024x32 .f32 :=
  accV.read (Elt F) (accV.writes (Elt F) accV.junk (runFirst c i arg2 harg2 arg3 harg3 arg4 harg4 arg5 harg5 hc0 hc1 x0 x1).1)

theorem cover_accMid (hc0 : ¬isFirst i) (hc1 : ¬isLast i) (x0 : Vec F S1024x1024 .f32) (x1 xs : Vec F S1024x32 .f32) (y : S1024x32.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x32.size (by sl_kernel_rfl) y
/-- What an inner case leaves in the accumulator, over what the point before left. -/
def accMid (hc0 : ¬isFirst i) (hc1 : ¬isLast i) (x0 : Vec F S1024x1024 .f32) (x1 xs : Vec F S1024x32 .f32) : Vec F S1024x32 .f32 :=
  accV.read (Elt F) (accV.writes (Elt F) accV.junk (runMid c i arg2 harg2 arg3 harg3 arg4 harg4 arg5 harg5 hc0 hc1 x0 x1 xs).1)

theorem cover_outLast (hc0 : ¬isFirst i) (hc1 : isLast i) (x0 : Vec F S1024x1024 .f32) (x1 xs : Vec F S1024x32 .f32) (y : S1024x32.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x32.size (by sl_kernel_rfl) y
/-- What the last case leaves in the output block. -/
def outLast (hc0 : ¬isFirst i) (hc1 : isLast i) (x0 : Vec F S1024x1024 .f32) (x1 xs : Vec F S1024x32 .f32) : Vec F S1024x32 .f32 :=
  outV.read (Elt F) (outV.writes (Elt F) outV.junk (runLast c i arg2 harg2 arg3 harg3 arg4 harg4 arg5 harg5 hc0 hc1 x0 x1 xs).1)
theorem cover_accLast (hc0 : ¬isFirst i) (hc1 : isLast i) (x0 : Vec F S1024x1024 .f32) (x1 xs : Vec F S1024x32 .f32) (y : S1024x32.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x32.size (by sl_kernel_rfl) y
/-- What the last case leaves in the accumulator. -/
def accLast (hc0 : ¬isFirst i) (hc1 : isLast i) (x0 : Vec F S1024x1024 .f32) (x1 xs : Vec F S1024x32 .f32) : Vec F S1024x32 .f32 :=
  accV.read (Elt F) (accV.writes (Elt F) accV.junk (runLast c i arg2 harg2 arg3 harg3 arg4 harg4 arg5 harg5 hc0 hc1 x0 x1 xs).2.1)

end Cases

/-! ## Point by point -/

/-- The accumulator after the body at position `n`. -/
def accAt (c : Dev nD) : (n : ℕ) → n < cfg0.N → Vec F S1024x32 .f32
  | 0, hn => accFirst c (grid0.coords ⟨0, hn⟩) (msX ⟨0, hn⟩) (hsX ⟨0, hn⟩) (msB ⟨0, hn⟩) (hsB ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩)
  | n + 1, hn =>
    if h0 : (n + 1) % 4 = 0 then
      accFirst c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩)
    else if h1 : (n + 1) % 4 = 3 then
      accLast c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (accAt c n (Nat.lt_of_succ_lt hn))
    else
      accMid c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

/-- The accumulator before point `t` when `t` is not the first point of the grid: what the point before left. -/
abbrev accBefore (c : Dev nD) (t : Fin cfg0.N) : Vec F S1024x32 .f32 :=
  accAt V c (t.val - 1) (Nat.lt_of_le_of_lt (Nat.sub_le _ _) t.isLt)

theorem accAt_first (c : Dev nD) (t : Fin cfg0.N) (h0 : t.val % 4 = 0) (h1 : ¬t.val % 4 = 3) :
    accAt V c t.val t.isLt = accFirst c (grid0.coords t) (msX t) (hsX t) (msB t) (hsB t) (msO t) (hsO t) accM (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg0.N) (h0 : ¬t.val % 4 = 0) (h1 : ¬t.val % 4 = 3) :
    accAt V c t.val t.isLt = accMid c (grid0.coords t) (msX t) (hsX t) (msB t) (hsB t) (msO t) (hsO t) accM (Memref.isWhole_whole _) (fun h => h0 ((isFirst_iff t).mp h)) (fun h => h1 ((isLast_iff t).mp h)) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (msX t) (hsX t) (msB t) (hsB t) (msO t) (hsO t) accM (Memref.isWhole_whole _) (fun h => h0 ((isFirst_iff t).mp h)) ((isLast_iff t).mpr h1) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_pos h1).trans rfl)

/-- The output window's staging buffer after the body at point `t`: where the contracted block is the last, what the last
    case stores; elsewhere the window is idle and this value is not consulted (the accumulator stands in). -/
def outAt (c : Dev nD) (t : Fin cfg0.N) : Vec F S1024x32 .f32 :=
  if h1 : t.val % 4 = 3 then
    outLast c (grid0.coords t) (msX t) (hsX t) (msB t) (hsB t) (msO t) (hsO t) accM (Memref.isWhole_whole _) (fun h => (fun h => by omega) ((isFirst_iff t).mp h)) ((isLast_iff t).mpr h1) (iblk V c 0 t) (iblk V c 1 t) (accBefore V c t)
  else accAt V c t.val t.isLt

theorem outAt_last (c : Dev nD) (t : Fin cfg0.N) (h0 : ¬t.val % 4 = 0) (h1 : t.val % 4 = 3) :
    outAt V c t = outLast c (grid0.coords t) (msX t) (hsX t) (msB t) (hsB t) (msO t) (hsO t) accM (Memref.isWhole_whole _) (fun h => h0 ((isFirst_iff t).mp h)) ((isLast_iff t).mpr h1) (iblk V c 0 t) (iblk V c 1 t) (accBefore V c t) := by
  unfold outAt; exact (dif_pos h1).trans rfl

/-! ## The invariant between points -/

/-- Before the first point: the scoped rest at anything and the generator register. Afterwards: the accumulator at what
    the point before left, the other region's scoped buffers at anything, the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_x (c : Dev nD) (t : Fin cfg0.N) : (dat V c).after 0 t = iblk V c 0 t := by dsimp only [dat]
theorem after_b (c : Dev nD) (t : Fin cfg0.N) : (dat V c).after 1 t = iblk V c 1 t := by dsimp only [dat]
theorem after_out (c : Dev nD) (t : Fin cfg0.N) : (dat V c).after 2 t = outAt V c t := by dsimp only [dat]
theorem before_x (c : Dev nD) (t : Fin cfg0.N) (d) : (dat V c).before 0 t d = iblk V c 0 t :=
  before_x_of V (dat V c) (A_eq V c 0) (after_x V c) t d
theorem before_b (c : Dev nD) (t : Fin cfg0.N) (d) : (dat V c).before 1 t d = iblk V c 1 t :=
  before_b_of V (dat V c) (A_eq V c 1) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msB t) fullShare ((dat V c).before 1 t d))
    ∗ (∃ d, owns (c : Thread nD τ) (msO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms say which case the point is in; the invariant hands the body the accumulator at
    what the point before left (at anything before the first point) and takes it back at this point's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_b]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (msX t) fullShare ((dat V c).after 0 t) from by
    unfold Dat.leavesExact; rw [live_x t], after_x]
  rw [show (dat V c).leavesExact 1 t = owns (c : Thread nD τ) (msB t) fullShare ((dat V c).after 1 t) from by
    unfold Dat.leavesExact; rw [live_b t], after_b]
  by_cases h0 : t.val % 4 = 0
  · have h1 : ¬t.val % 4 = 3 := by omega
    rw [Dat.leavesExact_idle (dat V c) 2 t (idle_out t (fun h => h1 ((isLast_iff t).mp h))) (noFlush_out t (fun h => h1 ((isLast_iff t).mp h)))]
    rw [accAt_first V c t h0 h1]
    unfold accFirst; (try dsimp only)
    by_cases hz : t.val = 0
    · rw [PhiS_castSucc V c t, PhiS_zero V c _ _ hz, restInv_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat V c).leavesExact 2 t = owns (c : Thread nD τ) (msO t) fullShare ((dat V c).after 2 t) from by
        unfold Dat.leavesExact; rw [live_out t ((isLast_iff t).mpr h1)], after_out]
      rw [accAt_last V c t h0 h1, outAt_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · rw [Dat.leavesExact_idle (dat V c) 2 t (idle_out t (fun h => h1 ((isLast_iff t).mp h))) (noFlush_out t (fun h => h1 ((isLast_iff t).mp h)))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the accumulator's value is forgotten. -/
theorem inv_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), restInv_eq]
  iintro ⟨⟨HS, Hoth⟩, Hg⟩
  isplitl [HS Hoth]
  · isplitl [HS]
    · iexists _; iexact HS
    iexact Hoth
  iexact Hg

end Cert.Kernel.Xb

end
-- ==== Proof.Kernel.Fused.Shared.lean ====
/-
  The fused kernel `y = x · Wᵀ + (xb · Aᵀ) · 1 + bias` (the second of the two kernel regions): what its three control
  cases share. The grid is 4 row blocks by 4 output-column blocks by 4 blocks of the contracted axis; the body zeroes its
  accumulator where the contracted block is the first, adds one block product at every point, and where the contracted
  block is the last adds the rank-32 correction and the bias to the accumulator's value and stores the sum in the output
  block. Here: a window's block at a grid point, read off the arrays as the region finds them; the two branch conditions
  in closed form over the linear point; where the output window is idle and where it is written back; the staging memrefs
  by name; and the region invariant's scratch spelt as a memref.
-/
import proofs.«107650_j28853590294649_1_alg».proof.Proof.Gen.Kernel.Launch
import proofs.«107650_j28853590294649_1_alg».proof.Proof.Gen.Kernel.Skeleton
import proofs.«107650_j28853590294649_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `x` is in its staging buffer at every point, fetched there or not. -/
theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block of `W` is in its staging buffer at every point, fetched there or not. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of the projection `xb` is in its staging buffer at every point, fetched there or not. -/
theorem before_xb_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The block of `A` is in its staging buffer at every point, fetched there or not. -/
theorem before_a_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The block of the bias is in its staging buffer at every point, fetched there or not. -/
theorem before_bias_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "The contracted block is the first": the reset's condition, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "The contracted block is the last": the write-out's condition. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem live_xb : ∀ t : Fin cfg1.N, cfg1.idle 2 (grid1.coords t) = false := by decide +kernel
theorem live_a : ∀ t : Fin cfg1.N, cfg1.idle 3 (grid1.coords t) = false := by decide +kernel
theorem live_bias : ∀ t : Fin cfg1.N, cfg1.idle 4 (grid1.coords t) = false := by decide +kernel
/-- Where the contracted block is not the last the output window is idle and is not written back. -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
/-- Where it is the last the body stores the output block. -/
theorem live_out : ∀ t : Fin cfg1.N, isLast (grid1.coords t) → cfg1.idle 5 (grid1.coords t) = false := by decide +kernel

/-! ## The memrefs the body is called with -/

abbrev msX (t : Fin cfg1.N) : Memref sig .tc .vmem S2048x1024 .f32 := win1_0.stage (cfg1.slots t 0)
abbrev hsX (t : Fin cfg1.N) : (msX t).IsWhole := hstage1_0 ((cfg1.slots t 0).cast nbuf1_0)
abbrev msW (t : Fin cfg1.N) : Memref sig .tc .vmem S1024x1024 .f32 := win1_1.stage (cfg1.slots t 1)
abbrev hsW (t : Fin cfg1.N) : (msW t).IsWhole := hstage1_1 ((cfg1.slots t 1).cast nbuf1_1)
abbrev msXb (t : Fin cfg1.N) : Memref sig .tc .vmem S2048x32 .f32 := win1_2.stage (cfg1.slots t 2)
abbrev hsXb (t : Fin cfg1.N) : (msXb t).IsWhole := hstage1_2 ((cfg1.slots t 2).cast nbuf1_2)
abbrev msA (t : Fin cfg1.N) : Memref sig .tc .vmem S1024x32 .f32 := win1_3.stage (cfg1.slots t 3)
abbrev hsA (t : Fin cfg1.N) : (msA t).IsWhole := hstage1_3 ((cfg1.slots t 3).cast nbuf1_3)
abbrev msBias (t : Fin cfg1.N) : Memref sig .tc .vmem S1x1024 .f32 := win1_4.stage (cfg1.slots t 4)
abbrev hsBias (t : Fin cfg1.N) : (msBias t).IsWhole := hstage1_4 ((cfg1.slots t 4).cast nbuf1_4)
abbrev msO (t : Fin cfg1.N) : Memref sig .tc .vmem S2048x1024 .f32 := win1_5.stage (cfg1.slots t 5)
abbrev hsO (t : Fin cfg1.N) : (msO t).IsWhole := hstage1_5 ((cfg1.slots t 5).cast nbuf1_5)
/-- The accumulator: a whole scoped buffer of the kernel's own. -/
abbrev accM : Memref sig .tc .vmem S2048x1024 .f32 := Memref.whole cc1_scratch0
abbrev accV : View sig .tc .vmem S2048x1024 .f32 := accM.view
/-- One staging buffer of the output window, through which its contents are stated. -/
abbrev outV : View sig .tc .vmem S2048x1024 .f32 := (Memref.whole cc1_stg5_0 : Memref sig .tc .vmem S2048x1024 .f32).view

/-- The scoped buffers that belong to the other kernel region (its staging buffers and its accumulator), each whole
    at some contents, followed by one more resource `X`, which is where this region's accumulator stands: this region
    never touches the former. -/
def othersThen (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- `othersThen` is monotone in the resource it ends with. -/
theorem othersThen_mono (c : Dev nD) {X Y : sProp 𝕄} (h : X ⊢ Y) : othersThen (F := F) c X ⊢ othersThen (F := F) c Y := by
  unfold othersThen
  iintro ⟨A1, A2, A3, A4, A5, A6, A7, HX⟩
  isplitl [A1]; · iexact A1
  isplitl [A2]; · iexact A2
  isplitl [A3]; · iexact A3
  isplitl [A4]; · iexact A4
  isplitl [A5]; · iexact A5
  isplitl [A6]; · iexact A6
  isplitl [A7]; · iexact A7
  iapply h; iexact HX

/-- The scoped buffers no window stages, with the accumulator singled out as a memref owned at some contents, and
    the generator register: what the region hands the body before its first point. -/
theorem restInv_eq (c : Dev nD) :
    (Pipeline.ΦA spec1 c : sProp 𝕄)
      = iprop(othersThen (F := F) c iprop(∃ d, owns (c : Thread nD τ) accM fullShare d) ∗ (∃ r, prngReg c r)) := by
  unfold Pipeline.ΦA othersThen; rw [scopedRest1_eq]; simp only [accM, owns_whole]; try rfl

end Cert.Kernel.Fused

end
-- ==== Proof.Kernel.Fused.CaseFirst.lean ====
/-
  The fused kernel's body where the contracted block is the FIRST and not the last: the accumulator, found at
  anything, is zeroed and then receives the block product of `x` and `W`; the output block and the blocks of the
  projection, of `A` and of the bias are not touched. The body's triple on whole staging memrefs, with the pieces the
  accumulator ends with found by running the body.
-/
import proofs.«107650_j28853590294649_1_alg».proof.Proof.Kernel.Fused.Shared

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces (last first) the body leaves in the accumulator where the contracted block is the first, with the
    triple: `x`'s and `W`'s blocks are read and kept; the blocks of the projection, of `A` and of the bias and the
    output's buffer are handed back as found. -/
noncomputable def runFirst (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : isFirst i) (hc1 : ¬isLast i)
    (x0 : Vec F S2048x1024 .f32) (x1 : Vec F S1024x1024 .f32) :
    { LS : List (View.Piece (Elt F) S2048x1024 .f32) //
      ∀ (x2 : Vec F S2048x32 .f32) (x3 : Vec F S1024x32 .f32) (x4 : Vec F S1x1024 .f32) (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, fun x2 x3 x4 xi E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Fused

end
-- ==== Proof.Kernel.Fused.CaseMid.lean ====
/-
  The fused kernel's body where the contracted block is neither the first nor the last: the accumulator, at what
  the point before left, receives the block product of `x` and `W`; the output block and the blocks of the projection,
  of `A` and of the bias are not touched.
-/
import proofs.«107650_j28853590294649_1_alg».proof.Proof.Kernel.Fused.CaseFirst

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the accumulator at an inner contracted block, with the triple: `x`'s and `W`'s blocks are read and kept; the blocks of the projection, of `A` and of the bias and the
    output's buffer are handed back as found. -/
noncomputable def runMid (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬isFirst i) (hc1 : ¬isLast i)
    (x0 : Vec F S2048x1024 .f32) (x1 : Vec F S1024x1024 .f32) (xs : Vec F S2048x1024 .f32) :
    { LS : List (View.Piece (Elt F) S2048x1024 .f32) //
      ∀ (x2 : Vec F S2048x32 .f32) (x3 : Vec F S1024x32 .f32) (x4 : Vec F S1x1024 .f32) (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, fun x2 x3 x4 xi E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Fused

end
-- ==== Proof.Kernel.Fused.CaseLast.lean ====
/-
  The fused kernel's body where the contracted block is the LAST (and not the first): the accumulator, at what
  the point before left, receives the block product of `x` and `W`; then the rank-32 correction (the projection's block
  times `A`'s, times the float word of one) and the bias are added to the accumulator's value and the sum is stored whole
  in the output block.
-/
import proofs.«107650_j28853590294649_1_alg».proof.Proof.Kernel.Fused.CaseMid

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block and in the accumulator at the last contracted block, with the triple:
    all five input blocks are read and kept. -/
noncomputable def runLast (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬isFirst i) (hc1 : isLast i)
    (x0 : Vec F S2048x1024 .f32) (x1 : Vec F S1024x1024 .f32) (x2 : Vec F S2048x32 .f32) (x3 : Vec F S1024x32 .f32) (x4 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Fused

end
-- ==== Proof.Kernel.Fused.Data.lean ====
/-
  The fused kernel region `y = x · Wᵀ + (xb · Aᵀ) · 1 + bias`: what its accumulator and its output block hold after each
  grid point, the region's invariant between points, the proof data of its pipeline, and the body obligation.

  The accumulator after point `n` is defined by recursion on `n`: where the contracted block is the first it is what the
  first case leaves from the blocks of `x` and `W` alone; elsewhere it is what the inner (or the last) case leaves from
  those blocks and the accumulator after point `n - 1`. The output block is stored only where the contracted block is the
  last, from all five input blocks and the accumulator before the point; elsewhere the window is idle and its staging
  buffer is handed back as found. Between points the invariant holds the accumulator at exactly that value, beside the
  scoped buffers of the other region and the generator register, none of which the body touches.
-/
import proofs.«107650_j28853590294649_1_alg».proof.Proof.Kernel.Fused.CaseLast

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole)

/-- The first case's stores into the accumulator tile it. -/
theorem cover_accFirst (hc0 : isFirst i) (hc1 : ¬isLast i) (x0 : Vec F S2048x1024 .f32) (x1 : Vec F S1024x1024 .f32) (y : S2048x1024.Idx) :
    ∃ pc ∈ (runFirst c i arg3 harg3 arg4 harg4 arg5 harg5 arg6 harg6 arg7 harg7 arg8 harg8 arg9 harg9 hc0 hc1 x0 x1).1, y ∈ pc.1.set :=
  View.cover_of_tiledL (runFirst c i arg3 harg3 arg4 harg4 arg5 harg5 arg6 harg6 arg7 harg7 arg8 harg8 arg9 harg9 hc0 hc1 x0 x1).1 S2048x1024.size (by sl_kernel_rfl) y
/-- What the first case leaves in the accumulator. -/
def accFirst (hc0 : isFirst i) (hc1 : ¬isLast i) (x0 : Vec F S2048x1024 .f32) (x1 : Vec F S1024x1024 .f32) : Vec F S2048x1024 .f32 :=
  accV.read (Elt F) (accV.writes (Elt F) accV.junk (runFirst c i arg3 harg3 arg4 harg4 arg5 harg5 arg6 harg6 arg7 harg7 arg8 harg8 arg9 harg9 hc0 hc1 x0 x1).1)

theorem cover_accMid (hc0 : ¬isFirst i) (hc1 : ¬isLast i) (x0 : Vec F S2048x1024 .f32) (x1 : Vec F S1024x1024 .f32) (xs : Vec F S2048x1024 .f32) (y : S2048x1024.Idx) :
    ∃ pc ∈ (runMid c i arg3 harg3 arg4 harg4 arg5 harg5 arg6 harg6 arg7 harg7 arg8 harg8 arg9 harg9 hc0 hc1 x0 x1 xs).1, y ∈ pc.1.set :=
  View.cover_of_tiledL (runMid c i arg3 harg3 arg4 harg4 arg5 harg5 arg6 harg6 arg7 harg7 arg8 harg8 arg9 harg9 hc0 hc1 x0 x1 xs).1 S2048x1024.size (by sl_kernel_rfl) y
/-- What an inner case leaves in the accumulator, over what the point before left. -/
def accMid (hc0 : ¬isFirst i) (hc1 : ¬isLast i) (x0 : Vec F S2048x1024 .f32) (x1 : Vec F S1024x1024 .f32) (xs : Vec F S2048x1024 .f32) : Vec F S2048x1024 .f32 :=
  accV.read (Elt F) (accV.writes (Elt F) accV.junk (runMid c i arg3 harg3 arg4 harg4 arg5 harg5 arg6 harg6 arg7 harg7 arg8 harg8 arg9 harg9 hc0 hc1 x0 x1 xs).1)

theorem cover_outLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) (y : S2048x1024.Idx) :
    ∃ pc ∈ (runLast c i arg3 harg3 arg4 harg4 arg5 harg5 arg6 harg6 arg7 harg7 arg8 harg8 arg9 harg9 hc0 hc1 x0 x1 x2 x3 x4 xs).1, y ∈ pc.1.set :=
  View.cover_of_tiledL (runLast c i arg3 harg3 arg4 harg4 arg5 harg5 arg6 harg6 arg7 harg7 arg8 harg8 arg9 harg9 hc0 hc1 x0 x1 x2 x3 x4 xs).1 S2048x1024.size (by sl_kernel_rfl) y
/-- What the last case leaves in the output block. -/
def outLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) : Vec F S2048x1024 .f32 :=
  outV.read (Elt F) (outV.writes (Elt F) outV.junk (runLast c i arg3 harg3 arg4 harg4 arg5 harg5 arg6 harg6 arg7 harg7 arg8 harg8 arg9 harg9 hc0 hc1 x0 x1 x2 x3 x4 xs).1)
theorem cover_accLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) (y : S2048x1024.Idx) :
    ∃ pc ∈ (runLast c i arg3 harg3 arg4 harg4 arg5 harg5 arg6 harg6 arg7 harg7 arg8 harg8 arg9 harg9 hc0 hc1 x0 x1 x2 x3 x4 xs).2.1, y ∈ pc.1.set :=
  View.cover_of_tiledL (runLast c i arg3 harg3 arg4 harg4 arg5 harg5 arg6 harg6 arg7 harg7 arg8 harg8 arg9 harg9 hc0 hc1 x0 x1 x2 x3 x4 xs).2.1 S2048x1024.size (by sl_kernel_rfl) y
/-- What the last case leaves in the accumulator. -/
def accLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) : Vec F S2048x1024 .f32 :=
  accV.read (Elt F) (accV.writes (Elt F) accV.junk (runLast c i arg3 harg3 arg4 harg4 arg5 harg5 arg6 harg6 arg7 harg7 arg8 harg8 arg9 harg9 hc0 hc1 x0 x1 x2 x3 x4 xs).2.1)

end Cases

/-! ## Point by point -/

/-- The accumulator after the body at position `n`. -/
def accAt (c : Dev nD) : (n : ℕ) → n < cfg1.N → Vec F S2048x1024 .f32
  | 0, hn => accFirst c (grid1.coords ⟨0, hn⟩) (msX ⟨0, hn⟩) (hsX ⟨0, hn⟩) (msW ⟨0, hn⟩) (hsW ⟨0, hn⟩) (msXb ⟨0, hn⟩) (hsXb ⟨0, hn⟩) (msA ⟨0, hn⟩) (hsA ⟨0, hn⟩) (msBias ⟨0, hn⟩) (hsBias ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩)
  | n + 1, hn =>
    if h0 : (n + 1) % 4 = 0 then
      accFirst c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩)
    else if h1 : (n + 1) % 4 = 3 then
      accLast c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
    else
      accMid c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

/-- The accumulator before point `t` when `t` is not the first point of the grid: what the point before left. -/
abbrev accBefore (c : Dev nD) (t : Fin cfg1.N) : Vec F S2048x1024 .f32 :=
  accAt V c (t.val - 1) (Nat.lt_of_le_of_lt (Nat.sub_le _ _) t.isLt)

theorem accAt_first (c : Dev nD) (t : Fin cfg1.N) (h0 : t.val % 4 = 0) (h1 : ¬t.val % 4 = 3) :
    accAt V c t.val t.isLt = accFirst c (grid1.coords t) (msX t) (hsX t) (msW t) (hsW t) (msXb t) (hsXb t) (msA t) (hsA t) (msBias t) (hsBias t) (msO t) (hsO t) accM (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg1.N) (h0 : ¬t.val % 4 = 0) (h1 : ¬t.val % 4 = 3) :
    accAt V c t.val t.isLt = accMid c (grid1.coords t) (msX t) (hsX t) (msW t) (hsW t) (msXb t) (hsXb t) (msA t) (hsA t) (msBias t) (hsBias t) (msO t) (hsO t) accM (Memref.isWhole_whole _) (fun h => h0 ((isFirst_iff t).mp h)) (fun h => h1 ((isLast_iff t).mp h)) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (msX t) (hsX t) (msW t) (hsW t) (msXb t) (hsXb t) (msA t) (hsA t) (msBias t) (hsBias t) (msO t) (hsO t) accM (Memref.isWhole_whole _) (fun h => h0 ((isFirst_iff t).mp h)) ((isLast_iff t).mpr h1) (iblk V c 0 t) (iblk V c 1 t) (iblk V c 2 t) (iblk V c 3 t) (iblk V c 4 t) (accBefore V c t) := by
  obtain ⟨n, hn⟩ := t
  cases n with
  | zero => exact (by exfalso; (try dsimp only at h0); exact absurd (Nat.zero_mod _) h0)
  | succ n => exact (dif_neg h0).trans ((dif_pos h1).trans rfl)

/-- The output window's staging buffer after the body at point `t`: where the contracted block is the last, what the last
    case stores; elsewhere the window is idle and this value is not consulted (the accumulator stands in). -/
def outAt (c : Dev nD) (t : Fin cfg1.N) : Vec F S2048x1024 .f32 :=
  if h1 : t.val % 4 = 3 then
    outLast c (grid1.coords t) (msX t) (hsX t) (msW t) (hsW t) (msXb t) (hsXb t) (msA t) (hsA t) (msBias t) (hsBias t) (msO t) (hsO t) accM (Memref.isWhole_whole _) (fun h => (fun h => by omega) ((isFirst_iff t).mp h)) ((isLast_iff t).mpr h1) (iblk V c 0 t) (iblk V c 1 t) (iblk V c 2 t) (iblk V c 3 t) (iblk V c 4 t) (accBefore V c t)
  else accAt V c t.val t.isLt

theorem outAt_last (c : Dev nD) (t : Fin cfg1.N) (h0 : ¬t.val % 4 = 0) (h1 : t.val % 4 = 3) :
    outAt V c t = outLast c (grid1.coords t) (msX t) (hsX t) (msW t) (hsW t) (msXb t) (hsXb t) (msA t) (hsA t) (msBias t) (hsBias t) (msO t) (hsO t) accM (Memref.isWhole_whole _) (fun h => h0 ((isFirst_iff t).mp h)) ((isLast_iff t).mpr h1) (iblk V c 0 t) (iblk V c 1 t) (iblk V c 2 t) (iblk V c 3 t) (iblk V c 4 t) (accBefore V c t) := by
  unfold outAt; exact (dif_pos h1).trans rfl

/-! ## The invariant between points -/

/-- Before the first point: the scoped rest at anything and the generator register. Afterwards: the other region's scoped
    buffers at anything, the accumulator at what the point before left, the generator register. -/
def PhiS (c : Dev nD) : (n : ℕ) → n ≤ cfg1.N → sProp 𝕄
  | 0, _ => Pipeline.ΦA spec1 c
  | n + 1, hn => iprop(othersThen (F := F) c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(othersThen (F := F) c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(othersThen (F := F) c (owns (c : Thread nD τ) accM fullShare (accAt V c (n - 1) (by omega))) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_xb (c : Dev nD) (t : Fin cfg1.N) : (dat V c).after 2 t = iblk V c 2 t := by dsimp only [dat]
theorem after_a (c : Dev nD) (t : Fin cfg1.N) : (dat V c).after 3 t = iblk V c 3 t := by dsimp only [dat]
theorem after_bias (c : Dev nD) (t : Fin cfg1.N) : (dat V c).after 4 t = iblk V c 4 t := by dsimp only [dat]
theorem after_out (c : Dev nD) (t : Fin cfg1.N) : (dat V c).after 5 t = outAt V c t := by dsimp only [dat]
theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d
theorem before_xb (c : Dev nD) (t : Fin cfg1.N) (d) : (dat V c).before 2 t d = iblk V c 2 t :=
  before_xb_of V (dat V c) (A_eq V c 2) (after_xb V c) t d
theorem before_a (c : Dev nD) (t : Fin cfg1.N) (d) : (dat V c).before 3 t d = iblk V c 3 t :=
  before_a_of V (dat V c) (A_eq V c 3) (after_a V c) t d
theorem before_bias (c : Dev nD) (t : Fin cfg1.N) (d) : (dat V c).before 4 t d = iblk V c 4 t :=
  before_bias_of V (dat V c) (A_eq V c 4) (after_bias V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msXb t) fullShare ((dat V c).before 2 t d))
    ∗ (∃ d, owns (c : Thread nD τ) (msA t) fullShare ((dat V c).before 3 t d))
    ∗ (∃ d, owns (c : Thread nD τ) (msBias t) fullShare ((dat V c).before 4 t d))
    ∗ (∃ d, owns (c : Thread nD τ) (msO t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the closed forms say which case the point is in; the invariant hands the body the accumulator at
    what the point before left (at anything before the first point) and takes it back at this point's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_xb, before_a, before_bias]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msXb t) fullShare ((dat V c).after 2 t) from by
    unfold Dat.leavesExact; rw [live_xb t], after_xb]
  rw [show (dat V c).leavesExact 3 t = owns (c : Thread nD τ) (msA t) fullShare ((dat V c).after 3 t) from by
    unfold Dat.leavesExact; rw [live_a t], after_a]
  rw [show (dat V c).leavesExact 4 t = owns (c : Thread nD τ) (msBias t) fullShare ((dat V c).after 4 t) from by
    unfold Dat.leavesExact; rw [live_bias t], after_bias]
  by_cases h0 : t.val % 4 = 0
  · have h1 : ¬t.val % 4 = 3 := by omega
    rw [Dat.leavesExact_idle (dat V c) 5 t (idle_out t (fun h => h1 ((isLast_iff t).mp h))) (noFlush_out t (fun h => h1 ((isLast_iff t).mp h)))]
    rw [accAt_first V c t h0 h1]
    unfold accFirst; (try dsimp only)
    by_cases hz : t.val = 0
    · rw [PhiS_castSucc V c t, PhiS_zero V c _ _ hz, restInv_eq]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (iblk V c 0 t) (iblk V c 1 t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (iblk V c 0 t) (iblk V c 1 t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 4 = 3
    · rw [show (dat V c).leavesExact 5 t = owns (c : Thread nD τ) (msO t) fullShare ((dat V c).after 5 t) from by
        unfold Dat.leavesExact; rw [live_out t ((isLast_iff t).mpr h1)], after_out]
      rw [accAt_last V c t h0 h1, outAt_last V c t h0 h1]
      unfold outLast accLast; (try dsimp only)
      rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_outLast c _ _ _ _ _ _ _ _ _ _ _ _ _ _ _ _ _ _ _ _ _ _ _)
    · rw [Dat.leavesExact_idle (dat V c) 5 t (idle_out t (fun h => h1 ((isLast_iff t).mp h))) (noFlush_out t (fun h => h1 ((isLast_iff t).mp h)))]
      rw [accAt_mid V c t h0 h1]
      unfold accMid; (try dsimp only)
      rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((isFirst_iff t).mp h)) (fun h => h1 ((isLast_iff t).mp h)) (iblk V c 0 t) (iblk V c 1 t) _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the accumulator's value is forgotten. -/
theorem inv_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), restInv_eq]
  unfold othersThen
  iintro ⟨⟨A1, A2, A3, A4, A5, A6, A7, HS⟩, Hg⟩
  isplitl [HS A1 A2 A3 A4 A5 A6 A7]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  iexact Hg

end Cert.Kernel.Fused

end
-- ==== Proof.Kernel.Whole.lean ====
/-
  The whole program: two reshapes, the projection kernel region, the fused kernel region, one reshape — launched as a list
  of segments, each entered from what the one before it left.

  The buffer contents at each boundary are a fold from the launch memory: after the first two reshapes; after the first
  region (its arrays at what its write-backs leave, every other buffer as entered); after the second region likewise;
  after the last reshape. Each region is entered with every unscoped buffer held at the boundary's contents, splits its
  windows' arrays out of them, runs its pipeline under its own invariant, and puts the arrays back at their exit contents.
  The run ends with every unscoped buffer at the last boundary's contents: the arguments, which no reshape and no region
  writes, at their launch contents, and the result at the reshape of what the second region left in its output array.
-/
import proofs.«107650_j28853590294649_1_alg».proof.Proof.Kernel.Xb.Data
import proofs.«107650_j28853590294649_1_alg».proof.Proof.Kernel.Fused.Data
import proofs.«107650_j28853590294649_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the two reshapes (the first region's entry). -/
abbrev B1 : Dev nD → Valuation τ sig (Elt F) := fun c => StableHlo.after hostOps0 (B0 m ρ c)
abbrev In0 : (c : Dev nD) → (b : Ref sig .tc) → Buf (Elt F) ((c : Thread nD τ).loc b) := fun c b => B1 m ρ c b
/-- After the projection region: its arrays at what the pipeline leaves, every other buffer as entered. -/
def B2 (c : Dev nD) : Valuation τ sig (Elt F) :=
  Pipeline.withArrays spec0 c (B1 m ρ c) fun w => (Xb.dat (In0 m ρ) c).arrAt w cfg0.N
theorem B2_arr (c : Dev nD) (w : Fin cfg0.W) :
    B2 m ρ c (Proc.devRef .tc (Pipeline.arrRef spec0 w)) = (Xb.dat (In0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev In1 : (c : Dev nD) → (b : Ref sig .tc) → Buf (Elt F) ((c : Thread nD τ).loc b) := fun c b => B2 m ρ c b
theorem hF0 (c : Dev nD) (w : Fin cfg0.W) : (Xb.dat (In0 m ρ) c).arrAt w cfg0.N = In1 m ρ c (Pipeline.arrRef spec0 w) :=
  (B2_arr m ρ c w).symm
theorem hrest0 (c : Dev nD) : ∀ b, b ∉ Finset.univ.image (Pipeline.arrRef spec0) → In1 m ρ c b = In0 m ρ c b :=
  fun b hb => B2_of_ne m ρ c b fun w e => hb (Finset.mem_image.mpr ⟨w, Finset.mem_univ _, e⟩)
/-- After the fused region. -/
def B3 (c : Dev nD) : Valuation τ sig (Elt F) :=
  Pipeline.withArrays spec1 c (B2 m ρ c) fun w => (Fused.dat (In1 m ρ) c).arrAt w cfg1.N
theorem B3_arr (c : Dev nD) (w : Fin cfg1.W) :
    B3 m ρ c (Proc.devRef .tc (Pipeline.arrRef spec1 w)) = (Fused.dat (In1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev Out1 : (c : Dev nD) → (b : Ref sig .tc) → Buf (Elt F) ((c : Thread nD τ).loc b) := fun c b => B3 m ρ c b
theorem hF1 (c : Dev nD) (w : Fin cfg1.W) : (Fused.dat (In1 m ρ) c).arrAt w cfg1.N = Out1 m ρ c (Pipeline.arrRef spec1 w) :=
  (B3_arr m ρ c w).symm
theorem hrest1 (c : Dev nD) : ∀ b, b ∉ Finset.univ.image (Pipeline.arrRef spec1) → Out1 m ρ c b = In1 m ρ c b :=
  fun b hb => B3_of_ne m ρ c b fun w e => hb (Finset.mem_image.mpr ⟨w, Finset.mem_univ _, e⟩)
/-- After the last reshape. -/
abbrev B4 : Dev nD → Valuation τ sig (Elt F) := fun c => StableHlo.after hostOps2 (B3 m ρ c)

/-! ## The arguments end as launched -/

theorem end_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 (B3 m ρ c) hostOps2_writes (by decide : main_arg0 ∉ hostOps2_W)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_writes_sub hostOps0 (B0 m ρ c) hostOps0_writes (by decide : main_arg0 ∉ hostOps0_W)
    _ = m ((c : Thread nD τ).loc main_arg0) := rfl

theorem end_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 (B3 m ρ c) hostOps2_writes (by decide : main_arg1 ∉ hostOps2_W)
    _ = B2 m ρ c (Proc.devRef .tc main_arg1) := (B3_arr m ρ c 1).trans (((Fused.dat (In1 m ρ) c).arrAt_in 1 rfl _).trans (Fused.A_eq (In1 m ρ) c 1))
    _ = B1 m ρ c (Proc.devRef .tc main_arg1) := B2_of_ne m ρ c main_arg1 (by decide)
    _ = B0 m ρ c (Proc.devRef .tc main_arg1) := StableHlo.after_of_writes_sub hostOps0 (B0 m ρ c) hostOps0_writes (by decide : main_arg1 ∉ hostOps0_W)
    _ = m ((c : Thread nD τ).loc main_arg1) := rfl

theorem end_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := StableHlo.after_of_writes_sub hostOps2 (B3 m ρ c) hostOps2_writes (by decide : main_arg2 ∉ hostOps2_W)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 (B0 m ρ c) hostOps0_writes (by decide : main_arg2 ∉ hostOps0_W)
    _ = m ((c : Thread nD τ).loc main_arg2) := rfl

theorem end_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := StableHlo.after_of_writes_sub hostOps2 (B3 m ρ c) hostOps2_writes (by decide : main_arg3 ∉ hostOps2_W)
    _ = B2 m ρ c (Proc.devRef .tc main_arg3) := (B3_arr m ρ c 3).trans (((Fused.dat (In1 m ρ) c).arrAt_in 3 rfl _).trans (Fused.A_eq (In1 m ρ) c 3))
    _ = B1 m ρ c (Proc.devRef .tc main_arg3) := B2_of_ne m ρ c main_arg3 (by decide)
    _ = B0 m ρ c (Proc.devRef .tc main_arg3) := StableHlo.after_of_writes_sub hostOps0 (B0 m ρ c) hostOps0_writes (by decide : main_arg3 ∉ hostOps0_W)
    _ = m ((c : Thread nD τ).loc main_arg3) := rfl

theorem end_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := StableHlo.after_of_writes_sub hostOps2 (B3 m ρ c) hostOps2_writes (by decide : main_arg4 ∉ hostOps2_W)
    _ = B2 m ρ c (Proc.devRef .tc main_arg4) := B3_of_ne m ρ c main_arg4 (by decide)
    _ = B1 m ρ c (Proc.devRef .tc main_arg4) := (B2_arr m ρ c 1).trans (((Xb.dat (In0 m ρ) c).arrAt_in 1 rfl _).trans (Xb.A_eq (In0 m ρ) c 1))
    _ = B0 m ρ c (Proc.devRef .tc main_arg4) := StableHlo.after_of_writes_sub hostOps0 (B0 m ρ c) hostOps0_writes (by decide : main_arg4 ∉ hostOps0_W)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Xb.dat (In0 m ρ) c
  | ⟨1, _⟩ => fun c => Fused.dat (In1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Xb.body_obligation (In0 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (In0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (In0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Xb.inv_in (In0 m ρ) c)
    unfold Pipeline.ΦA
    iintro ⟨Hp, -, Hr⟩
    isplitl [Hr]; · iexact Hr
    iexact Hp
  hout c := by
    rw [Pipeline.ownSems0_none]
    refine (Xb.inv_out (In0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (In0 m ρ c) (In1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation (In1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (In1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (In1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fused.inv_in (In1 m ρ) c)
    unfold Pipeline.ΦA
    iintro ⟨Hp, -, Hr⟩
    isplitl [Hr]; · iexact Hr
    iexact Hp
  hout c := by
    rw [Pipeline.ownSems0_none]
    refine (Fused.inv_out (In1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (In1 m ρ c) (Out1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      change iprop(StableHlo.held (c : Thread nD τ) (Pipeline.ucRefs τ sig) (B4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c),
     (h c _ (mem_uc main_arg4 (by decide))).trans (end_main_arg4 m ρ c)⟩) (run_all m ρ)

end Cert.Kernel.Whole

end
-- ==== Proof.KernelIdeal.Xb.Shared.lean ====
/-
  The rank-32 projection kernel `xb = x · B` (the first of the two kernel regions): what its three control cases
  share. The grid is 8 row blocks by 4 blocks of the contracted axis; the body zeroes its accumulator where the
  contracted block is the first, adds one block product at every point, and copies the accumulator into the output
  block where the contracted block is the last. Here: a window's block at a grid point, read off the arrays as the
  region finds them; the two branch conditions in closed form over the linear point; where the output window is
  idle and where it is written back; the staging memrefs by name; and the region invariant's scratch spelt as a memref.
-/
import proofs.«107650_j28853590294649_1_alg».proof.Proof.Gen.KernelIdeal.Launch
import proofs.«107650_j28853590294649_1_alg».proof.Proof.Gen.KernelIdeal.Skeleton
import proofs.«107650_j28853590294649_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block of `B` is in its staging buffer at every point. -/
theorem before_b_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "The contracted block is the first": the reset's condition, from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "The contracted block is the last": the write-out's condition. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_b : ∀ t : Fin cfg0.N, cfg0.idle 1 (grid0.coords t) = false := by decide +kernel
/-- Where the contracted block is not the last the output window is idle and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- Where it is the last the body stores the output block. -/
theorem live_out : ∀ t : Fin cfg0.N, isLast (grid0.coords t) → cfg0.idle 2 (grid0.coords t) = false := by decide +kernel

/-! ## The memrefs the body is called with -/

abbrev msX (t : Fin cfg0.N) : Memref sig .tc .vmem S1024x1024 .f32 := win0_0.stage (cfg0.slots t 0)
abbrev hsX (t : Fin cfg0.N) : (msX t).IsWhole := hstage0_0 ((cfg0.slots t 0).cast nbuf0_0)
abbrev msB (t : Fin cfg0.N) : Memref sig .tc .vmem S1024x32 .f32 := win0_1.stage (cfg0.slots t 1)
abbrev hsB (t : Fin cfg0.N) : (msB t).IsWhole := hstage0_1 ((cfg0.slots t 1).cast nbuf0_1)
abbrev msO (t : Fin cfg0.N) : Memref sig .tc .vmem S1024x32 .f32 := win0_2.stage (cfg0.slots t 2)
abbrev hsO (t : Fin cfg0.N) : (msO t).IsWhole := hstage0_2 ((cfg0.slots t 2).cast nbuf0_2)
/-- The accumulator: a whole scoped buffer of the kernel's own. -/
abbrev accM : Memref sig .tc .vmem S1024x32 .f32 := Memref.whole cc0_scratch0
abbrev accV : View sig .tc .vmem S1024x32 .f32 := accM.view
/-- One staging buffer of the output window, through which its contents are stated. -/
abbrev outV : View sig .tc .vmem S1024x32 .f32 := (Memref.whole cc0_stg2_0 : Memref sig .tc .vmem S1024x32 .f32).view

/-- The scoped buffers that belong to the other kernel region (its staging buffers and its accumulator), each whole
    at some contents: this region never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped buffers no window stages, with the accumulator singled out as a memref owned at some contents, and
    the generator register: what the region hands the body before its first point. -/
theorem restInv_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.KernelIdeal.Xb

end
-- ==== Proof.KernelIdeal.Xb.CaseFirst.lean ====
/-
  The projection kernel's body where the contracted block is the FIRST and not the last: the accumulator, found at
  anything, is zeroed and then receives the block product; the output block is not touched. The body's triple on
  whole staging memrefs, with the pieces the accumulator ends with found by running the body.
-/
import proofs.«107650_j28853590294649_1_alg».proof.Proof.KernelIdeal.Xb.Shared

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces (last first) the body leaves in the accumulator where the contracted block is the first, with the
    triple: `x`'s and `B`'s blocks are read and kept, the output's buffer is handed back as found. -/
noncomputable def runFirst (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : isFirst i) (hc1 : ¬isLast i)
    (x0 : Vec F S1024x1024 .f32) (x1 : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, fun xi E K => ?run⟩
  case run =>
    simp only [cc0__xb_kernel_eq_skeleton]; unfold cc0__xb_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Xb

end
-- ==== Proof.KernelIdeal.Xb.CaseMid.lean ====
/-
  The projection kernel's body where the contracted block is neither the first nor the last: the accumulator, at
  what the point before left, receives the block product; the output block is not touched.
-/
import proofs.«107650_j28853590294649_1_alg».proof.Proof.KernelIdeal.Xb.CaseFirst

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the accumulator at an inner contracted block, with the triple. -/
noncomputable def runMid (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : ¬isFirst i) (hc1 : ¬isLast i)
    (x0 : Vec F S1024x1024 .f32) (x1 : Vec F S1024x32 .f32) (xs : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, fun xi E K => ?run⟩
  case run =>
    simp only [cc0__xb_kernel_eq_skeleton]; unfold cc0__xb_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Xb

end
-- ==== Proof.KernelIdeal.Xb.CaseLast.lean ====
/-
  The projection kernel's body where the contracted block is the LAST (and not the first): the accumulator, at what
  the point before left, receives the block product and is then copied whole into the output block.
-/
import proofs.«107650_j28853590294649_1_alg».proof.Proof.KernelIdeal.Xb.CaseMid

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block and in the accumulator at the last contracted block, with the triple. -/
noncomputable def runLast (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (hc0 : ¬isFirst i) (hc1 : isLast i)
    (x0 : Vec F S1024x1024 .f32) (x1 : Vec F S1024x32 .f32) (xs : Vec F S1024x32 .f32) :
    Σ' (LO : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__xb_kernel i arg2 harg2 arg3 harg3 arg4 harg4 arg5 harg5) K } := by
  refine ⟨?_, ?_, fun E K => ?run⟩
  case run =>
    simp only [cc0__xb_kernel_eq_skeleton]; unfold cc0__xb_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Xb

end
-- ==== Proof.KernelIdeal.Xb.Data.lean ====
/-
  The projection kernel region `xb = x · B`: what its accumulator and its output block hold after each grid point, the
  region's invariant between points, the proof data of its pipeline, and the body obligation.

  The accumulator after point `n` is defined by recursion on `n`: where the contracted block is the first it is what the
  first case leaves from the two input blocks alone; elsewhere it is what the inner (or the last) case leaves from the input
  blocks and the accumulator after point `n - 1`. The output block is stored only where the contracted block is the last,
  from the same three values; elsewhere the window is idle and its staging buffer is handed back as found.
  Between points the invariant holds the accumulator at exactly that value, beside the scoped buffers of the other region
  and the generator register, none of which the body touches.
-/
import proofs.«107650_j28853590294649_1_alg».proof.Proof.KernelIdeal.Xb.CaseLast

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole)

/-- The first case's stores into the accumulator tile it. -/
theorem cover_accFirst (hc0 : isFirst i) (hc1 : ¬isLast i) (x0 : Vec F S1024x1024 .f32) (x1 : Vec F S1024x32 .f32) (y : S1024x32.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x32.size (by sl_kernel_rfl) y
/-- What the first case leaves in the accumulator. -/
def accFirst (hc0 : isFirst i) (hc1 : ¬isLast i) (x0 : Vec F S1024x1024 .f32) (x1 : Vec F S1024x32 .f32) : Vec F S1024x32 .f32 :=
  accV.read (Elt F) (accV.writes (Elt F) accV.junk (runFirst c i arg2 harg2 arg3 harg3 arg4 harg4 arg5 harg5 hc0 hc1 x0 x1).1)

theorem cover_accMid (hc0 : ¬isFirst i) (hc1 : ¬isLast i) (x0 : Vec F S1024x1024 .f32) (x1 xs : Vec F S1024x32 .f32) (y : S1024x32.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x32.size (by sl_kernel_rfl) y
/-- What an inner case leaves in the accumulator, over what the point before left. -/
def accMid (hc0 : ¬isFirst i) (hc1 : ¬isLast i) (x0 : Vec F S1024x1024 .f32) (x1 xs : Vec F S1024x32 .f32) : Vec F S1024x32 .f32 :=
  accV.read (Elt F) (accV.writes (Elt F) accV.junk (runMid c i arg2 harg2 arg3 harg3 arg4 harg4 arg5 harg5 hc0 hc1 x0 x1 xs).1)

theorem cover_outLast (hc0 : ¬isFirst i) (hc1 : isLast i) (x0 : Vec F S1024x1024 .f32) (x1 xs : Vec F S1024x32 .f32) (y : S1024x32.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x32.size (by sl_kernel_rfl) y
/-- What the last case leaves in the output block. -/
def outLast (hc0 : ¬isFirst i) (hc1 : isLast i) (x0 : Vec F S1024x1024 .f32) (x1 xs : Vec F S1024x32 .f32) : Vec F S1024x32 .f32 :=
  outV.read (Elt F) (outV.writes (Elt F) outV.junk (runLast c i arg2 harg2 arg3 harg3 arg4 harg4 arg5 harg5 hc0 hc1 x0 x1 xs).1)
theorem cover_accLast (hc0 : ¬isFirst i) (hc1 : isLast i) (x0 : Vec F S1024x1024 .f32) (x1 xs : Vec F S1024x32 .f32) (y : S1024x32.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x32.size (by sl_kernel_rfl) y
/-- What the last case leaves in the accumulator. -/
def accLast (hc0 : ¬isFirst i) (hc1 : isLast i) (x0 : Vec F S1024x1024 .f32) (x1 xs : Vec F S1024x32 .f32) : Vec F S1024x32 .f32 :=
  accV.read (Elt F) (accV.writes (Elt F) accV.junk (runLast c i arg2 harg2 arg3 harg3 arg4 harg4 arg5 harg5 hc0 hc1 x0 x1 xs).2.1)

end Cases

/-! ## Point by point -/

/-- The accumulator after the body at position `n`. -/
def accAt (c : Dev nD) : (n : ℕ) → n < cfg0.N → Vec F S1024x32 .f32
  | 0, hn => accFirst c (grid0.coords ⟨0, hn⟩) (msX ⟨0, hn⟩) (hsX ⟨0, hn⟩) (msB ⟨0, hn⟩) (hsB ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩)
  | n + 1, hn =>
    if h0 : (n + 1) % 4 = 0 then
      accFirst c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩)
    else if h1 : (n + 1) % 4 = 3 then
      accLast c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (accAt c n (Nat.lt_of_succ_lt hn))
    else
      accMid c (grid0.coords ⟨n + 1, hn⟩) (msX ⟨n + 1, hn⟩) (hsX ⟨n + 1, hn⟩) (msB ⟨n + 1, hn⟩) (hsB ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

/-- The accumulator before point `t` when `t` is not the first point of the grid: what the point before left. -/
abbrev accBefore (c : Dev nD) (t : Fin cfg0.N) : Vec F S1024x32 .f32 :=
  accAt V c (t.val - 1) (Nat.lt_of_le_of_lt (Nat.sub_le _ _) t.isLt)

theorem accAt_first (c : Dev nD) (t : Fin cfg0.N) (h0 : t.val % 4 = 0) (h1 : ¬t.val % 4 = 3) :
    accAt V c t.val t.isLt = accFirst c (grid0.coords t) (msX t) (hsX t) (msB t) (hsB t) (msO t) (hsO t) accM (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg0.N) (h0 : ¬t.val % 4 = 0) (h1 : ¬t.val % 4 = 3) :
    accAt V c t.val t.isLt = accMid c (grid0.coords t) (msX t) (hsX t) (msB t) (hsB t) (msO t) (hsO t) accM (Memref.isWhole_whole _) (fun h => h0 ((isFirst_iff t).mp h)) (fun h => h1 ((isLast_iff t).mp h)) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (msX t) (hsX t) (msB t) (hsB t) (msO t) (hsO t) accM (Memref.isWhole_whole _) (fun h => h0 ((isFirst_iff t).mp h)) ((isLast_iff t).mpr h1) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_pos h1).trans rfl)

/-- The output window's staging buffer after the body at point `t`: where the contracted block is the last, what the last
    case stores; elsewhere the window is idle and this value is not consulted (the accumulator stands in). -/
def outAt (c : Dev nD) (t : Fin cfg0.N) : Vec F S1024x32 .f32 :=
  if h1 : t.val % 4 = 3 then
    outLast c (grid0.coords t) (msX t) (hsX t) (msB t) (hsB t) (msO t) (hsO t) accM (Memref.isWhole_whole _) (fun h => (fun h => by omega) ((isFirst_iff t).mp h)) ((isLast_iff t).mpr h1) (iblk V c 0 t) (iblk V c 1 t) (accBefore V c t)
  else accAt V c t.val t.isLt

theorem outAt_last (c : Dev nD) (t : Fin cfg0.N) (h0 : ¬t.val % 4 = 0) (h1 : t.val % 4 = 3) :
    outAt V c t = outLast c (grid0.coords t) (msX t) (hsX t) (msB t) (hsB t) (msO t) (hsO t) accM (Memref.isWhole_whole _) (fun h => h0 ((isFirst_iff t).mp h)) ((isLast_iff t).mpr h1) (iblk V c 0 t) (iblk V c 1 t) (accBefore V c t) := by
  unfold outAt; exact (dif_pos h1).trans rfl

/-! ## The invariant between points -/

/-- Before the first point: the scoped rest at anything and the generator register. Afterwards: the accumulator at what
    the point before left, the other region's scoped buffers at anything, the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_x (c : Dev nD) (t : Fin cfg0.N) : (dat V c).after 0 t = iblk V c 0 t := by dsimp only [dat]
theorem after_b (c : Dev nD) (t : Fin cfg0.N) : (dat V c).after 1 t = iblk V c 1 t := by dsimp only [dat]
theorem after_out (c : Dev nD) (t : Fin cfg0.N) : (dat V c).after 2 t = outAt V c t := by dsimp only [dat]
theorem before_x (c : Dev nD) (t : Fin cfg0.N) (d) : (dat V c).before 0 t d = iblk V c 0 t :=
  before_x_of V (dat V c) (A_eq V c 0) (after_x V c) t d
theorem before_b (c : Dev nD) (t : Fin cfg0.N) (d) : (dat V c).before 1 t d = iblk V c 1 t :=
  before_b_of V (dat V c) (A_eq V c 1) (after_b V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msB t) fullShare ((dat V c).before 1 t d))
    ∗ (∃ d, owns (c : Thread nD τ) (msO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms say which case the point is in; the invariant hands the body the accumulator at
    what the point before left (at anything before the first point) and takes it back at this point's value. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_b]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (msX t) fullShare ((dat V c).after 0 t) from by
    unfold Dat.leavesExact; rw [live_x t], after_x]
  rw [show (dat V c).leavesExact 1 t = owns (c : Thread nD τ) (msB t) fullShare ((dat V c).after 1 t) from by
    unfold Dat.leavesExact; rw [live_b t], after_b]
  by_cases h0 : t.val % 4 = 0
  · have h1 : ¬t.val % 4 = 3 := by omega
    rw [Dat.leavesExact_idle (dat V c) 2 t (idle_out t (fun h => h1 ((isLast_iff t).mp h))) (noFlush_out t (fun h => h1 ((isLast_iff t).mp h)))]
    rw [accAt_first V c t h0 h1]
    unfold accFirst; (try dsimp only)
    by_cases hz : t.val = 0
    · rw [PhiS_castSucc V c t, PhiS_zero V c _ _ hz, restInv_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat V c).leavesExact 2 t = owns (c : Thread nD τ) (msO t) fullShare ((dat V c).after 2 t) from by
        unfold Dat.leavesExact; rw [live_out t ((isLast_iff t).mpr h1)], after_out]
      rw [accAt_last V c t h0 h1, outAt_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · rw [Dat.leavesExact_idle (dat V c) 2 t (idle_out t (fun h => h1 ((isLast_iff t).mp h))) (noFlush_out t (fun h => h1 ((isLast_iff t).mp h)))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the accumulator's value is forgotten. -/
theorem inv_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), restInv_eq]
  iintro ⟨⟨HS, Hoth⟩, Hg⟩
  isplitl [HS Hoth]
  · isplitl [HS]
    · iexists _; iexact HS
    iexact Hoth
  iexact Hg

end Cert.KernelIdeal.Xb

end
-- ==== Proof.KernelIdeal.Fused.Shared.lean ====
/-
  The fused kernel `y = x · Wᵀ + (xb · Aᵀ) · 1 + bias` (the second of the two kernel regions): what its three control
  cases share. The grid is 4 row blocks by 4 output-column blocks by 4 blocks of the contracted axis; the body zeroes its
  accumulator where the contracted block is the first, adds one block product at every point, and where the contracted
  block is the last adds the rank-32 correction and the bias to the accumulator's value and stores the sum in the output
  block. Here: a window's block at a grid point, read off the arrays as the region finds them; the two branch conditions
  in closed form over the linear point; where the output window is idle and where it is written back; the staging memrefs
  by name; and the region invariant's scratch spelt as a memref.
-/
import proofs.«107650_j28853590294649_1_alg».proof.Proof.Gen.KernelIdeal.Launch
import proofs.«107650_j28853590294649_1_alg».proof.Proof.Gen.KernelIdeal.Skeleton
import proofs.«107650_j28853590294649_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `x` is in its staging buffer at every point, fetched there or not. -/
theorem before_x_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The block of `W` is in its staging buffer at every point, fetched there or not. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of the projection `xb` is in its staging buffer at every point, fetched there or not. -/
theorem before_xb_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The block of `A` is in its staging buffer at every point, fetched there or not. -/
theorem before_a_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The block of the bias is in its staging buffer at every point, fetched there or not. -/
theorem before_bias_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "The contracted block is the first": the reset's condition, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "The contracted block is the last": the write-out's condition. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem live_xb : ∀ t : Fin cfg1.N, cfg1.idle 2 (grid1.coords t) = false := by decide +kernel
theorem live_a : ∀ t : Fin cfg1.N, cfg1.idle 3 (grid1.coords t) = false := by decide +kernel
theorem live_bias : ∀ t : Fin cfg1.N, cfg1.idle 4 (grid1.coords t) = false := by decide +kernel
/-- Where the contracted block is not the last the output window is idle and is not written back. -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
/-- Where it is the last the body stores the output block. -/
theorem live_out : ∀ t : Fin cfg1.N, isLast (grid1.coords t) → cfg1.idle 5 (grid1.coords t) = false := by decide +kernel

/-! ## The memrefs the body is called with -/

abbrev msX (t : Fin cfg1.N) : Memref sig .tc .vmem S2048x1024 .f32 := win1_0.stage (cfg1.slots t 0)
abbrev hsX (t : Fin cfg1.N) : (msX t).IsWhole := hstage1_0 ((cfg1.slots t 0).cast nbuf1_0)
abbrev msW (t : Fin cfg1.N) : Memref sig .tc .vmem S1024x1024 .f32 := win1_1.stage (cfg1.slots t 1)
abbrev hsW (t : Fin cfg1.N) : (msW t).IsWhole := hstage1_1 ((cfg1.slots t 1).cast nbuf1_1)
abbrev msXb (t : Fin cfg1.N) : Memref sig .tc .vmem S2048x32 .f32 := win1_2.stage (cfg1.slots t 2)
abbrev hsXb (t : Fin cfg1.N) : (msXb t).IsWhole := hstage1_2 ((cfg1.slots t 2).cast nbuf1_2)
abbrev msA (t : Fin cfg1.N) : Memref sig .tc .vmem S1024x32 .f32 := win1_3.stage (cfg1.slots t 3)
abbrev hsA (t : Fin cfg1.N) : (msA t).IsWhole := hstage1_3 ((cfg1.slots t 3).cast nbuf1_3)
abbrev msBias (t : Fin cfg1.N) : Memref sig .tc .vmem S1x1024 .f32 := win1_4.stage (cfg1.slots t 4)
abbrev hsBias (t : Fin cfg1.N) : (msBias t).IsWhole := hstage1_4 ((cfg1.slots t 4).cast nbuf1_4)
abbrev msO (t : Fin cfg1.N) : Memref sig .tc .vmem S2048x1024 .f32 := win1_5.stage (cfg1.slots t 5)
abbrev hsO (t : Fin cfg1.N) : (msO t).IsWhole := hstage1_5 ((cfg1.slots t 5).cast nbuf1_5)
/-- The accumulator: a whole scoped buffer of the kernel's own. -/
abbrev accM : Memref sig .tc .vmem S2048x1024 .f32 := Memref.whole cc1_scratch0
abbrev accV : View sig .tc .vmem S2048x1024 .f32 := accM.view
/-- One staging buffer of the output window, through which its contents are stated. -/
abbrev outV : View sig .tc .vmem S2048x1024 .f32 := (Memref.whole cc1_stg5_0 : Memref sig .tc .vmem S2048x1024 .f32).view

/-- The scoped buffers that belong to the other kernel region (its staging buffers and its accumulator), each whole
    at some contents, followed by one more resource `X`, which is where this region's accumulator stands: this region
    never touches the former. -/
def othersThen (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- `othersThen` is monotone in the resource it ends with. -/
theorem othersThen_mono (c : Dev nD) {X Y : sProp 𝕄} (h : X ⊢ Y) : othersThen (F := F) c X ⊢ othersThen (F := F) c Y := by
  unfold othersThen
  iintro ⟨A1, A2, A3, A4, A5, A6, A7, HX⟩
  isplitl [A1]; · iexact A1
  isplitl [A2]; · iexact A2
  isplitl [A3]; · iexact A3
  isplitl [A4]; · iexact A4
  isplitl [A5]; · iexact A5
  isplitl [A6]; · iexact A6
  isplitl [A7]; · iexact A7
  iapply h; iexact HX

/-- The scoped buffers no window stages, with the accumulator singled out as a memref owned at some contents, and
    the generator register: what the region hands the body before its first point. -/
theorem restInv_eq (c : Dev nD) :
    (Pipeline.ΦA spec1 c : sProp 𝕄)
      = iprop(othersThen (F := F) c iprop(∃ d, owns (c : Thread nD τ) accM fullShare d) ∗ (∃ r, prngReg c r)) := by
  unfold Pipeline.ΦA othersThen; rw [scopedRest1_eq]; simp only [accM, owns_whole]; try rfl

end Cert.KernelIdeal.Fused

end
-- ==== Proof.KernelIdeal.Fused.CaseFirst.lean ====
/-
  The fused kernel's body where the contracted block is the FIRST and not the last: the accumulator, found at
  anything, is zeroed and then receives the block product of `x` and `W`; the output block and the blocks of the
  projection, of `A` and of the bias are not touched. The body's triple on whole staging memrefs, with the pieces the
  accumulator ends with found by running the body.
-/
import proofs.«107650_j28853590294649_1_alg».proof.Proof.KernelIdeal.Fused.Shared

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces (last first) the body leaves in the accumulator where the contracted block is the first, with the
    triple: `x`'s and `W`'s blocks are read and kept; the blocks of the projection, of `A` and of the bias and the
    output's buffer are handed back as found. -/
noncomputable def runFirst (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : isFirst i) (hc1 : ¬isLast i)
    (x0 : Vec F S2048x1024 .f32) (x1 : Vec F S1024x1024 .f32) :
    { LS : List (View.Piece (Elt F) S2048x1024 .f32) //
      ∀ (x2 : Vec F S2048x32 .f32) (x3 : Vec F S1024x32 .f32) (x4 : Vec F S1x1024 .f32) (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, fun x2 x3 x4 xi E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Fused

end
-- ==== Proof.KernelIdeal.Fused.CaseMid.lean ====
/-
  The fused kernel's body where the contracted block is neither the first nor the last: the accumulator, at what
  the point before left, receives the block product of `x` and `W`; the output block and the blocks of the projection,
  of `A` and of the bias are not touched.
-/
import proofs.«107650_j28853590294649_1_alg».proof.Proof.KernelIdeal.Fused.CaseFirst

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the accumulator at an inner contracted block, with the triple: `x`'s and `W`'s blocks are read and kept; the blocks of the projection, of `A` and of the bias and the
    output's buffer are handed back as found. -/
noncomputable def runMid (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬isFirst i) (hc1 : ¬isLast i)
    (x0 : Vec F S2048x1024 .f32) (x1 : Vec F S1024x1024 .f32) (xs : Vec F S2048x1024 .f32) :
    { LS : List (View.Piece (Elt F) S2048x1024 .f32) //
      ∀ (x2 : Vec F S2048x32 .f32) (x3 : Vec F S1024x32 .f32) (x4 : Vec F S1x1024 .f32) (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, fun x2 x3 x4 xi E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Fused

end
-- ==== Proof.KernelIdeal.Fused.CaseLast.lean ====
/-
  The fused kernel's body where the contracted block is the LAST (and not the first): the accumulator, at what
  the point before left, receives the block product of `x` and `W`; then the rank-32 correction (the projection's block
  times `A`'s, times the float word of one) and the bias are added to the accumulator's value and the sum is stored whole
  in the output block.
-/
import proofs.«107650_j28853590294649_1_alg».proof.Proof.KernelIdeal.Fused.CaseMid

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block and in the accumulator at the last contracted block, with the triple:
    all five input blocks are read and kept. -/
noncomputable def runLast (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬isFirst i) (hc1 : isLast i)
    (x0 : Vec F S2048x1024 .f32) (x1 : Vec F S1024x1024 .f32) (x2 : Vec F S2048x32 .f32) (x3 : Vec F S1024x32 .f32) (x4 : Vec F S1x1024 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Fused

end
-- ==== Proof.KernelIdeal.Fused.Data.lean ====
/-
  The fused kernel region `y = x · Wᵀ + (xb · Aᵀ) · 1 + bias`: what its accumulator and its output block hold after each
  grid point, the region's invariant between points, the proof data of its pipeline, and the body obligation.

  The accumulator after point `n` is defined by recursion on `n`: where the contracted block is the first it is what the
  first case leaves from the blocks of `x` and `W` alone; elsewhere it is what the inner (or the last) case leaves from
  those blocks and the accumulator after point `n - 1`. The output block is stored only where the contracted block is the
  last, from all five input blocks and the accumulator before the point; elsewhere the window is idle and its staging
  buffer is handed back as found. Between points the invariant holds the accumulator at exactly that value, beside the
  scoped buffers of the other region and the generator register, none of which the body touches.
-/
import proofs.«107650_j28853590294649_1_alg».proof.Proof.KernelIdeal.Fused.CaseLast

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole)

/-- The first case's stores into the accumulator tile it. -/
theorem cover_accFirst (hc0 : isFirst i) (hc1 : ¬isLast i) (x0 : Vec F S2048x1024 .f32) (x1 : Vec F S1024x1024 .f32) (y : S2048x1024.Idx) :
    ∃ pc ∈ (runFirst c i arg3 harg3 arg4 harg4 arg5 harg5 arg6 harg6 arg7 harg7 arg8 harg8 arg9 harg9 hc0 hc1 x0 x1).1, y ∈ pc.1.set :=
  View.cover_of_tiledL (runFirst c i arg3 harg3 arg4 harg4 arg5 harg5 arg6 harg6 arg7 harg7 arg8 harg8 arg9 harg9 hc0 hc1 x0 x1).1 S2048x1024.size (by sl_kernel_rfl) y
/-- What the first case leaves in the accumulator. -/
def accFirst (hc0 : isFirst i) (hc1 : ¬isLast i) (x0 : Vec F S2048x1024 .f32) (x1 : Vec F S1024x1024 .f32) : Vec F S2048x1024 .f32 :=
  accV.read (Elt F) (accV.writes (Elt F) accV.junk (runFirst c i arg3 harg3 arg4 harg4 arg5 harg5 arg6 harg6 arg7 harg7 arg8 harg8 arg9 harg9 hc0 hc1 x0 x1).1)

theorem cover_accMid (hc0 : ¬isFirst i) (hc1 : ¬isLast i) (x0 : Vec F S2048x1024 .f32) (x1 : Vec F S1024x1024 .f32) (xs : Vec F S2048x1024 .f32) (y : S2048x1024.Idx) :
    ∃ pc ∈ (runMid c i arg3 harg3 arg4 harg4 arg5 harg5 arg6 harg6 arg7 harg7 arg8 harg8 arg9 harg9 hc0 hc1 x0 x1 xs).1, y ∈ pc.1.set :=
  View.cover_of_tiledL (runMid c i arg3 harg3 arg4 harg4 arg5 harg5 arg6 harg6 arg7 harg7 arg8 harg8 arg9 harg9 hc0 hc1 x0 x1 xs).1 S2048x1024.size (by sl_kernel_rfl) y
/-- What an inner case leaves in the accumulator, over what the point before left. -/
def accMid (hc0 : ¬isFirst i) (hc1 : ¬isLast i) (x0 : Vec F S2048x1024 .f32) (x1 : Vec F S1024x1024 .f32) (xs : Vec F S2048x1024 .f32) : Vec F S2048x1024 .f32 :=
  accV.read (Elt F) (accV.writes (Elt F) accV.junk (runMid c i arg3 harg3 arg4 harg4 arg5 harg5 arg6 harg6 arg7 harg7 arg8 harg8 arg9 harg9 hc0 hc1 x0 x1 xs).1)

theorem cover_outLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) (y : S2048x1024.Idx) :
    ∃ pc ∈ (runLast c i arg3 harg3 arg4 harg4 arg5 harg5 arg6 harg6 arg7 harg7 arg8 harg8 arg9 harg9 hc0 hc1 x0 x1 x2 x3 x4 xs).1, y ∈ pc.1.set :=
  View.cover_of_tiledL (runLast c i arg3 harg3 arg4 harg4 arg5 harg5 arg6 harg6 arg7 harg7 arg8 harg8 arg9 harg9 hc0 hc1 x0 x1 x2 x3 x4 xs).1 S2048x1024.size (by sl_kernel_rfl) y
/-- What the last case leaves in the output block. -/
def outLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) : Vec F S2048x1024 .f32 :=
  outV.read (Elt F) (outV.writes (Elt F) outV.junk (runLast c i arg3 harg3 arg4 harg4 arg5 harg5 arg6 harg6 arg7 harg7 arg8 harg8 arg9 harg9 hc0 hc1 x0 x1 x2 x3 x4 xs).1)
theorem cover_accLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) (y : S2048x1024.Idx) :
    ∃ pc ∈ (runLast c i arg3 harg3 arg4 harg4 arg5 harg5 arg6 harg6 arg7 harg7 arg8 harg8 arg9 harg9 hc0 hc1 x0 x1 x2 x3 x4 xs).2.1, y ∈ pc.1.set :=
  View.cover_of_tiledL (runLast c i arg3 harg3 arg4 harg4 arg5 harg5 arg6 harg6 arg7 harg7 arg8 harg8 arg9 harg9 hc0 hc1 x0 x1 x2 x3 x4 xs).2.1 S2048x1024.size (by sl_kernel_rfl) y
/-- What the last case leaves in the accumulator. -/
def accLast (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) : Vec F S2048x1024 .f32 :=
  accV.read (Elt F) (accV.writes (Elt F) accV.junk (runLast c i arg3 harg3 arg4 harg4 arg5 harg5 arg6 harg6 arg7 harg7 arg8 harg8 arg9 harg9 hc0 hc1 x0 x1 x2 x3 x4 xs).2.1)

end Cases

/-! ## Point by point -/

/-- The accumulator after the body at position `n`. -/
def accAt (c : Dev nD) : (n : ℕ) → n < cfg1.N → Vec F S2048x1024 .f32
  | 0, hn => accFirst c (grid1.coords ⟨0, hn⟩) (msX ⟨0, hn⟩) (hsX ⟨0, hn⟩) (msW ⟨0, hn⟩) (hsW ⟨0, hn⟩) (msXb ⟨0, hn⟩) (hsXb ⟨0, hn⟩) (msA ⟨0, hn⟩) (hsA ⟨0, hn⟩) (msBias ⟨0, hn⟩) (hsBias ⟨0, hn⟩) (msO ⟨0, hn⟩) (hsO ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩)
  | n + 1, hn =>
    if h0 : (n + 1) % 4 = 0 then
      accFirst c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩)
    else if h1 : (n + 1) % 4 = 3 then
      accLast c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
    else
      accMid c (grid1.coords ⟨n + 1, hn⟩) (msX ⟨n + 1, hn⟩) (hsX ⟨n + 1, hn⟩) (msW ⟨n + 1, hn⟩) (hsW ⟨n + 1, hn⟩) (msXb ⟨n + 1, hn⟩) (hsXb ⟨n + 1, hn⟩) (msA ⟨n + 1, hn⟩) (hsA ⟨n + 1, hn⟩) (msBias ⟨n + 1, hn⟩) (hsBias ⟨n + 1, hn⟩) (msO ⟨n + 1, hn⟩) (hsO ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

/-- The accumulator before point `t` when `t` is not the first point of the grid: what the point before left. -/
abbrev accBefore (c : Dev nD) (t : Fin cfg1.N) : Vec F S2048x1024 .f32 :=
  accAt V c (t.val - 1) (Nat.lt_of_le_of_lt (Nat.sub_le _ _) t.isLt)

theorem accAt_first (c : Dev nD) (t : Fin cfg1.N) (h0 : t.val % 4 = 0) (h1 : ¬t.val % 4 = 3) :
    accAt V c t.val t.isLt = accFirst c (grid1.coords t) (msX t) (hsX t) (msW t) (hsW t) (msXb t) (hsXb t) (msA t) (hsA t) (msBias t) (hsBias t) (msO t) (hsO t) accM (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg1.N) (h0 : ¬t.val % 4 = 0) (h1 : ¬t.val % 4 = 3) :
    accAt V c t.val t.isLt = accMid c (grid1.coords t) (msX t) (hsX t) (msW t) (hsW t) (msXb t) (hsXb t) (msA t) (hsA t) (msBias t) (hsBias t) (msO t) (hsO t) accM (Memref.isWhole_whole _) (fun h => h0 ((isFirst_iff t).mp h)) (fun h => h1 ((isLast_iff t).mp h)) (iblk V c 0 t) (iblk V c 1 t) (accBefore V c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (msX t) (hsX t) (msW t) (hsW t) (msXb t) (hsXb t) (msA t) (hsA t) (msBias t) (hsBias t) (msO t) (hsO t) accM (Memref.isWhole_whole _) (fun h => h0 ((isFirst_iff t).mp h)) ((isLast_iff t).mpr h1) (iblk V c 0 t) (iblk V c 1 t) (iblk V c 2 t) (iblk V c 3 t) (iblk V c 4 t) (accBefore V c t) := by
  obtain ⟨n, hn⟩ := t
  cases n with
  | zero => exact (by exfalso; (try dsimp only at h0); exact absurd (Nat.zero_mod _) h0)
  | succ n => exact (dif_neg h0).trans ((dif_pos h1).trans rfl)

/-- The output window's staging buffer after the body at point `t`: where the contracted block is the last, what the last
    case stores; elsewhere the window is idle and this value is not consulted (the accumulator stands in). -/
def outAt (c : Dev nD) (t : Fin cfg1.N) : Vec F S2048x1024 .f32 :=
  if h1 : t.val % 4 = 3 then
    outLast c (grid1.coords t) (msX t) (hsX t) (msW t) (hsW t) (msXb t) (hsXb t) (msA t) (hsA t) (msBias t) (hsBias t) (msO t) (hsO t) accM (Memref.isWhole_whole _) (fun h => (fun h => by omega) ((isFirst_iff t).mp h)) ((isLast_iff t).mpr h1) (iblk V c 0 t) (iblk V c 1 t) (iblk V c 2 t) (iblk V c 3 t) (iblk V c 4 t) (accBefore V c t)
  else accAt V c t.val t.isLt

theorem outAt_last (c : Dev nD) (t : Fin cfg1.N) (h0 : ¬t.val % 4 = 0) (h1 : t.val % 4 = 3) :
    outAt V c t = outLast c (grid1.coords t) (msX t) (hsX t) (msW t) (hsW t) (msXb t) (hsXb t) (msA t) (hsA t) (msBias t) (hsBias t) (msO t) (hsO t) accM (Memref.isWhole_whole _) (fun h => h0 ((isFirst_iff t).mp h)) ((isLast_iff t).mpr h1) (iblk V c 0 t) (iblk V c 1 t) (iblk V c 2 t) (iblk V c 3 t) (iblk V c 4 t) (accBefore V c t) := by
  unfold outAt; exact (dif_pos h1).trans rfl

/-! ## The invariant between points -/

/-- Before the first point: the scoped rest at anything and the generator register. Afterwards: the other region's scoped
    buffers at anything, the accumulator at what the point before left, the generator register. -/
def PhiS (c : Dev nD) : (n : ℕ) → n ≤ cfg1.N → sProp 𝕄
  | 0, _ => Pipeline.ΦA spec1 c
  | n + 1, hn => iprop(othersThen (F := F) c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(othersThen (F := F) c (owns (c : Thread nD τ) accM fullShare (accAt V c n hn)) ∗ (∃ r, prngReg c r)) := rfl
theorem PhiS_pos (c : Dev nD) (n : ℕ) (h : n ≤ cfg1.N) (hz : n ≠ 0) :
    PhiS V c n h = iprop(othersThen (F := F) c (owns (c : Thread nD τ) accM fullShare (accAt V c (n - 1) (by omega))) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_xb (c : Dev nD) (t : Fin cfg1.N) : (dat V c).after 2 t = iblk V c 2 t := by dsimp only [dat]
theorem after_a (c : Dev nD) (t : Fin cfg1.N) : (dat V c).after 3 t = iblk V c 3 t := by dsimp only [dat]
theorem after_bias (c : Dev nD) (t : Fin cfg1.N) : (dat V c).after 4 t = iblk V c 4 t := by dsimp only [dat]
theorem after_out (c : Dev nD) (t : Fin cfg1.N) : (dat V c).after 5 t = outAt V c t := by dsimp only [dat]
theorem before_x (c : Dev nD) (t : Fin cfg1.N) (d) : (dat V c).before 0 t d = iblk V c 0 t :=
  before_x_of V (dat V c) (A_eq V c 0) (after_x V c) t d
theorem before_w (c : Dev nD) (t : Fin cfg1.N) (d) : (dat V c).before 1 t d = iblk V c 1 t :=
  before_w_of V (dat V c) (A_eq V c 1) (after_w V c) t d
theorem before_xb (c : Dev nD) (t : Fin cfg1.N) (d) : (dat V c).before 2 t d = iblk V c 2 t :=
  before_xb_of V (dat V c) (A_eq V c 2) (after_xb V c) t d
theorem before_a (c : Dev nD) (t : Fin cfg1.N) (d) : (dat V c).before 3 t d = iblk V c 3 t :=
  before_a_of V (dat V c) (A_eq V c 3) (after_a V c) t d
theorem before_bias (c : Dev nD) (t : Fin cfg1.N) (d) : (dat V c).before 4 t d = iblk V c 4 t :=
  before_bias_of V (dat V c) (A_eq V c 4) (after_bias V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msW t) fullShare ((dat V c).before 1 t d))
    ∗ (∃ d, owns (c : Thread nD τ) (msXb t) fullShare ((dat V c).before 2 t d))
    ∗ (∃ d, owns (c : Thread nD τ) (msA t) fullShare ((dat V c).before 3 t d))
    ∗ (∃ d, owns (c : Thread nD τ) (msBias t) fullShare ((dat V c).before 4 t d))
    ∗ (∃ d, owns (c : Thread nD τ) (msO t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the closed forms say which case the point is in; the invariant hands the body the accumulator at
    what the point before left (at anything before the first point) and takes it back at this point's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_xb, before_a, before_bias]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (msX t) fullShare ((dat V c).after 0 t) from by
    unfold Dat.leavesExact; rw [live_x t], after_x]
  rw [show (dat V c).leavesExact 1 t = owns (c : Thread nD τ) (msW t) fullShare ((dat V c).after 1 t) from by
    unfold Dat.leavesExact; rw [live_w t], after_w]
  rw [show (dat V c).leavesExact 2 t = owns (c : Thread nD τ) (msXb t) fullShare ((dat V c).after 2 t) from by
    unfold Dat.leavesExact; rw [live_xb t], after_xb]
  rw [show (dat V c).leavesExact 3 t = owns (c : Thread nD τ) (msA t) fullShare ((dat V c).after 3 t) from by
    unfold Dat.leavesExact; rw [live_a t], after_a]
  rw [show (dat V c).leavesExact 4 t = owns (c : Thread nD τ) (msBias t) fullShare ((dat V c).after 4 t) from by
    unfold Dat.leavesExact; rw [live_bias t], after_bias]
  by_cases h0 : t.val % 4 = 0
  · have h1 : ¬t.val % 4 = 3 := by omega
    rw [Dat.leavesExact_idle (dat V c) 5 t (idle_out t (fun h => h1 ((isLast_iff t).mp h))) (noFlush_out t (fun h => h1 ((isLast_iff t).mp h)))]
    rw [accAt_first V c t h0 h1]
    unfold accFirst; (try dsimp only)
    by_cases hz : t.val = 0
    · rw [PhiS_castSucc V c t, PhiS_zero V c _ _ hz, restInv_eq]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (iblk V c 0 t) (iblk V c 1 t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (iblk V c 0 t) (iblk V c 1 t)).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 4 = 3
    · rw [show (dat V c).leavesExact 5 t = owns (c : Thread nD τ) (msO t) fullShare ((dat V c).after 5 t) from by
        unfold Dat.leavesExact; rw [live_out t ((isLast_iff t).mpr h1)], after_out]
      rw [accAt_last V c t h0 h1, outAt_last V c t h0 h1]
      unfold outLast accLast; (try dsimp only)
      rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_outLast c _ _ _ _ _ _ _ _ _ _ _ _ _ _ _ _ _ _ _ _ _ _ _)
    · rw [Dat.leavesExact_idle (dat V c) 5 t (idle_out t (fun h => h1 ((isLast_iff t).mp h))) (noFlush_out t (fun h => h1 ((isLast_iff t).mp h)))]
      rw [accAt_mid V c t h0 h1]
      unfold accMid; (try dsimp only)
      rw [PhiS_castSucc V c t, PhiS_pos V c _ _ hz]
      unfold othersThen
      iintro ⟨⟨⟨A1, A2, A3, A4, A5, A6, A7, HS⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((isFirst_iff t).mp h)) (fun h => h1 ((isLast_iff t).mp h)) (iblk V c 0 t) (iblk V c 1 t) _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS A1 A2 A3 A4 A5 A6 A7 Hg]
      · isplitl [HS A1 A2 A3 A4 A5 A6 A7]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (cover_accMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the accumulator's value is forgotten. -/
theorem inv_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), restInv_eq]
  unfold othersThen
  iintro ⟨⟨A1, A2, A3, A4, A5, A6, A7, HS⟩, Hg⟩
  isplitl [HS A1 A2 A3 A4 A5 A6 A7]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  iexact Hg

end Cert.KernelIdeal.Fused

end
-- ==== Proof.KernelIdeal.Whole.lean ====
/-
  The whole program: two reshapes, the projection kernel region, the fused kernel region, one reshape — launched as a list
  of segments, each entered from what the one before it left.

  The buffer contents at each boundary are a fold from the launch memory: after the first two reshapes; after the first
  region (its arrays at what its write-backs leave, every other buffer as entered); after the second region likewise;
  after the last reshape. Each region is entered with every unscoped buffer held at the boundary's contents, splits its
  windows' arrays out of them, runs its pipeline under its own invariant, and puts the arrays back at their exit contents.
  The run ends with every unscoped buffer at the last boundary's contents: the arguments, which no reshape and no region
  writes, at their launch contents, and the result at the reshape of what the second region left in its output array.
-/
import proofs.«107650_j28853590294649_1_alg».proof.Proof.KernelIdeal.Xb.Data
import proofs.«107650_j28853590294649_1_alg».proof.Proof.KernelIdeal.Fused.Data
import proofs.«107650_j28853590294649_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the two reshapes (the first region's entry). -/
abbrev B1 : Dev nD → Valuation τ sig (Elt F) := fun c => StableHlo.after hostOps0 (B0 m ρ c)
abbrev In0 : (c : Dev nD) → (b : Ref sig .tc) → Buf (Elt F) ((c : Thread nD τ).loc b) := fun c b => B1 m ρ c b
/-- After the projection region: its arrays at what the pipeline leaves, every other buffer as entered. -/
def B2 (c : Dev nD) : Valuation τ sig (Elt F) :=
  Pipeline.withArrays spec0 c (B1 m ρ c) fun w => (Xb.dat (In0 m ρ) c).arrAt w cfg0.N
theorem B2_arr (c : Dev nD) (w : Fin cfg0.W) :
    B2 m ρ c (Proc.devRef .tc (Pipeline.arrRef spec0 w)) = (Xb.dat (In0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev In1 : (c : Dev nD) → (b : Ref sig .tc) → Buf (Elt F) ((c : Thread nD τ).loc b) := fun c b => B2 m ρ c b
theorem hF0 (c : Dev nD) (w : Fin cfg0.W) : (Xb.dat (In0 m ρ) c).arrAt w cfg0.N = In1 m ρ c (Pipeline.arrRef spec0 w) :=
  (B2_arr m ρ c w).symm
theorem hrest0 (c : Dev nD) : ∀ b, b ∉ Finset.univ.image (Pipeline.arrRef spec0) → In1 m ρ c b = In0 m ρ c b :=
  fun b hb => B2_of_ne m ρ c b fun w e => hb (Finset.mem_image.mpr ⟨w, Finset.mem_univ _, e⟩)
/-- After the fused region. -/
def B3 (c : Dev nD) : Valuation τ sig (Elt F) :=
  Pipeline.withArrays spec1 c (B2 m ρ c) fun w => (Fused.dat (In1 m ρ) c).arrAt w cfg1.N
theorem B3_arr (c : Dev nD) (w : Fin cfg1.W) :
    B3 m ρ c (Proc.devRef .tc (Pipeline.arrRef spec1 w)) = (Fused.dat (In1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev Out1 : (c : Dev nD) → (b : Ref sig .tc) → Buf (Elt F) ((c : Thread nD τ).loc b) := fun c b => B3 m ρ c b
theorem hF1 (c : Dev nD) (w : Fin cfg1.W) : (Fused.dat (In1 m ρ) c).arrAt w cfg1.N = Out1 m ρ c (Pipeline.arrRef spec1 w) :=
  (B3_arr m ρ c w).symm
theorem hrest1 (c : Dev nD) : ∀ b, b ∉ Finset.univ.image (Pipeline.arrRef spec1) → Out1 m ρ c b = In1 m ρ c b :=
  fun b hb => B3_of_ne m ρ c b fun w e => hb (Finset.mem_image.mpr ⟨w, Finset.mem_univ _, e⟩)
/-- After the last reshape. -/
abbrev B4 : Dev nD → Valuation τ sig (Elt F) := fun c => StableHlo.after hostOps2 (B3 m ρ c)

/-! ## The arguments end as launched -/

theorem end_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 (B3 m ρ c) hostOps2_writes (by decide : main_arg0 ∉ hostOps2_W)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_writes_sub hostOps0 (B0 m ρ c) hostOps0_writes (by decide : main_arg0 ∉ hostOps0_W)
    _ = m ((c : Thread nD τ).loc main_arg0) := rfl

theorem end_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 (B3 m ρ c) hostOps2_writes (by decide : main_arg1 ∉ hostOps2_W)
    _ = B2 m ρ c (Proc.devRef .tc main_arg1) := (B3_arr m ρ c 1).trans (((Fused.dat (In1 m ρ) c).arrAt_in 1 rfl _).trans (Fused.A_eq (In1 m ρ) c 1))
    _ = B1 m ρ c (Proc.devRef .tc main_arg1) := B2_of_ne m ρ c main_arg1 (by decide)
    _ = B0 m ρ c (Proc.devRef .tc main_arg1) := StableHlo.after_of_writes_sub hostOps0 (B0 m ρ c) hostOps0_writes (by decide : main_arg1 ∉ hostOps0_W)
    _ = m ((c : Thread nD τ).loc main_arg1) := rfl

theorem end_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := StableHlo.after_of_writes_sub hostOps2 (B3 m ρ c) hostOps2_writes (by decide : main_arg2 ∉ hostOps2_W)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 (B0 m ρ c) hostOps0_writes (by decide : main_arg2 ∉ hostOps0_W)
    _ = m ((c : Thread nD τ).loc main_arg2) := rfl

theorem end_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := StableHlo.after_of_writes_sub hostOps2 (B3 m ρ c) hostOps2_writes (by decide : main_arg3 ∉ hostOps2_W)
    _ = B2 m ρ c (Proc.devRef .tc main_arg3) := (B3_arr m ρ c 3).trans (((Fused.dat (In1 m ρ) c).arrAt_in 3 rfl _).trans (Fused.A_eq (In1 m ρ) c 3))
    _ = B1 m ρ c (Proc.devRef .tc main_arg3) := B2_of_ne m ρ c main_arg3 (by decide)
    _ = B0 m ρ c (Proc.devRef .tc main_arg3) := StableHlo.after_of_writes_sub hostOps0 (B0 m ρ c) hostOps0_writes (by decide : main_arg3 ∉ hostOps0_W)
    _ = m ((c : Thread nD τ).loc main_arg3) := rfl

theorem end_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := StableHlo.after_of_writes_sub hostOps2 (B3 m ρ c) hostOps2_writes (by decide : main_arg4 ∉ hostOps2_W)
    _ = B2 m ρ c (Proc.devRef .tc main_arg4) := B3_of_ne m ρ c main_arg4 (by decide)
    _ = B1 m ρ c (Proc.devRef .tc main_arg4) := (B2_arr m ρ c 1).trans (((Xb.dat (In0 m ρ) c).arrAt_in 1 rfl _).trans (Xb.A_eq (In0 m ρ) c 1))
    _ = B0 m ρ c (Proc.devRef .tc main_arg4) := StableHlo.after_of_writes_sub hostOps0 (B0 m ρ c) hostOps0_writes (by decide : main_arg4 ∉ hostOps0_W)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Xb.dat (In0 m ρ) c
  | ⟨1, _⟩ => fun c => Fused.dat (In1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Xb.body_obligation (In0 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (In0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (In0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Xb.inv_in (In0 m ρ) c)
    unfold Pipeline.ΦA
    iintro ⟨Hp, -, Hr⟩
    isplitl [Hr]; · iexact Hr
    iexact Hp
  hout c := by
    rw [Pipeline.ownSems0_none]
    refine (Xb.inv_out (In0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (In0 m ρ c) (In1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation (In1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (In1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (In1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fused.inv_in (In1 m ρ) c)
    unfold Pipeline.ΦA
    iintro ⟨Hp, -, Hr⟩
    isplitl [Hr]; · iexact Hr
    iexact Hp
  hout c := by
    rw [Pipeline.ownSems0_none]
    refine (Fused.inv_out (In1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (In1 m ρ c) (Out1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      change iprop(StableHlo.held (c : Thread nD τ) (Pipeline.ucRefs τ sig) (B4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c),
     (h c _ (mem_uc main_arg4 (by decide))).trans (end_main_arg4 m ρ c)⟩) (run_all m ρ)

end Cert.KernelIdeal.Whole

end
-- ==== Proof.KernelIdeal.Xb.Pieces.lean ====
/-
  The projection kernel region's found pieces, read back as values. Every store of the body goes through the rectangle at
  offset (0, 0) that is the whole 1024x32 buffer, so the contents a run's pieces leave are the payload of the last store;
  a load of the accumulator after a store in the same run reads that store's payload back. Hence: where the contracted
  block is the first the accumulator ends at the block product added to the zero block; elsewhere at the block product
  added to what the accumulator held; and the output block, stored only at the last contracted block, receives that value.
-/
import proofs.«107650_j28853590294649_1_alg».proof.Proof.KernelIdeal.Xb.Data
import Idealize.ShloMosaic.Lib.Pipeline.Value

set_option maxRecDepth 16384

noncomputable section

namespace Cert.KernelIdeal.Xb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offset of every rectangle the body stores through or loads from is zero. -/
theorem hz : (![0, 0] : Fin 2 → Nat) = fun _ => 0 := funext fun a => by fin_cases a <;> rfl

section Cases
variable (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole)

/-- Where the contracted block is the first, the accumulator ends at the block product added to the zero block: the
    reset's store covers the buffer, the load after it reads the zero block back, and the update's store covers it again. -/
theorem accFirst_eq (hc0 : isFirst i) (hc1 : ¬isLast i) (x0 : Vec F S1024x1024 .f32) (x1 : Vec F S1024x32 .f32) :
    accFirst c i arg2 harg2 arg3 harg3 arg4 harg4 arg5 harg5 hc0 hc1 x0 x1 = k0_pay2 x0 x1 (k0_pay1 (F := F)) := by
  unfold accFirst
  rw [View.read_writes_eq_canon _ _ _ (cover_accFirst c i arg2 harg2 arg3 harg3 arg4 harg4 arg5 harg5 hc0 hc1 x0 x1)]
  unfold runFirst
  dsimp only
  sl_unfold_words
  rw [View.canon_cons_unit_zero (S := S1024x32) hz, View.readCov_unit_zero (S := S1024x32) _ hz]
  simp only [View.readAt_eq_ld, harg2.read_unread, harg3.read_unread, View.ld_unit_zero (S := S1024x1024) hz,
    View.ld_unit_zero (S := S1024x32) hz]

/-- At an inner contracted block the accumulator ends at the block product added to what it held: one covering store. -/
theorem accMid_eq (hc0 : ¬isFirst i) (hc1 : ¬isLast i) (x0 : Vec F S1024x1024 .f32) (x1 xs : Vec F S1024x32 .f32) :
    accMid c i arg2 harg2 arg3 harg3 arg4 harg4 arg5 harg5 hc0 hc1 x0 x1 xs = k0_pay2 x0 x1 xs := by
  unfold accMid
  rw [View.read_writes_eq_canon _ _ _ (cover_accMid c i arg2 harg2 arg3 harg3 arg4 harg4 arg5 harg5 hc0 hc1 x0 x1 xs)]
  unfold runMid
  dsimp only
  rw [View.canon_unit_zero (S := S1024x32) hz]
  simp only [View.readAt_eq_ld, harg2.read_unread, harg3.read_unread, harg5.read_unread, View.ld_unit_zero (S := S1024x1024) hz,
    View.ld_unit_zero (S := S1024x32) hz]

/-- At the last contracted block the accumulator ends at the same value as at an inner one. -/
theorem accLast_eq (hc0 : ¬isFirst i) (hc1 : isLast i) (x0 : Vec F S1024x1024 .f32) (x1 xs : Vec F S1024x32 .f32) :
    accLast c i arg2 harg2 arg3 harg3 arg4 harg4 arg5 harg5 hc0 hc1 x0 x1 xs = k0_pay2 x0 x1 xs := by
  unfold accLast
  rw [View.read_writes_eq_canon _ _ _ (cover_accLast c i arg2 harg2 arg3 harg3 arg4 harg4 arg5 harg5 hc0 hc1 x0 x1 xs)]
  unfold runLast
  dsimp only
  sl_unfold_words
  rw [View.canon_unit_zero (S := S1024x32) hz]
  simp only [View.readAt_eq_ld, harg2.read_unread, harg3.read_unread, harg5.read_unread, View.ld_unit_zero (S := S1024x1024) hz,
    View.ld_unit_zero (S := S1024x32) hz]

/-- At the last contracted block the output block receives the accumulator's final value, read back after its store. -/
theorem outLast_eq (hc0 : ¬isFirst i) (hc1 : isLast i) (x0 : Vec F S1024x1024 .f32) (x1 xs : Vec F S1024x32 .f32) :
    outLast c i arg2 harg2 arg3 harg3 arg4 harg4 arg5 harg5 hc0 hc1 x0 x1 xs = k0_pay2 x0 x1 xs := by
  unfold outLast
  rw [View.read_writes_eq_canon _ _ _ (cover_outLast c i arg2 harg2 arg3 harg3 arg4 harg4 arg5 harg5 hc0 hc1 x0 x1 xs)]
  unfold runLast
  dsimp only
  sl_unfold_words
  rw [View.canon_unit_zero (S := S1024x32) hz, View.readCov_unit_zero (S := S1024x32) _ hz]
  simp only [View.readAt_eq_ld, harg2.read_unread, harg3.read_unread, harg5.read_unread, View.ld_unit_zero (S := S1024x1024) hz,
    View.ld_unit_zero (S := S1024x32) hz]

end Cases

end Cert.KernelIdeal.Xb

end
-- ==== Proof.LoraSpec.lean ====
/-
  What the kernel and the reference compute, as two closed forms over the extended reals, and the law that joins them.

  With `x : [4, 2048, 4096]`, `W : [4096, 4096]`, `bias : [4096]`, `A, B : [4096, 32]` and `one` the float word of 1.0:

    kernel form     y[b,s,o] = (Σ_k x[b,s,k]·W[o,k]  +  (Σ_r (Σ_k x[b,s,k]·B[k,r]) · A[o,r]) · one)  +  bias[o]
    reference form  y[b,s,o] =  Σ_k x[b,s,k]·(W[o,k] + (Σ_r A[o,r]·B[k,r]) · one)                    +  bias[o]

  They agree when every entry of `x`, `W`, `A`, `B` is a real number: the reference form distributes `x[b,s,k]` over the
  inner sum and the two sums over `k` and `r` are exchanged. On the extended reals distributivity fails at the infinities,
  so the law is proved through ℝ. Also here: a sum over 4096 indices as four consecutive blocks of 1024, which is how the
  kernel accumulates its products.
-/
import Idealize.ShloMosaic.PureOps.Ideal
import Idealize.ShloMosaic.Lib.ValueIdx
import Mathlib.Algebra.BigOperators.Fin
import Mathlib.Data.EReal.Operations
import Mathlib.Logic.Equiv.Fin.Basic
import Mathlib.Tactic.Ring

noncomputable section

namespace Cert.LoraSpec

open Idealize.ShloMosaic Idealize.ShloMosaic.ValueIdx

abbrev SX : Shape := ⟨3, ![4, 2048, 4096]⟩
abbrev SW : Shape := ⟨2, ![4096, 4096]⟩
abbrev SBias : Shape := ⟨1, ![4096]⟩
abbrev SLo : Shape := ⟨2, ![4096, 32]⟩

/-- The float word of 1.0, read at the ideal instance. -/
def one : EReal := Ideal.ofBits .f32 0x3F800000#32

/-- The kernel's arrangement: the dense product and the rank-32 correction computed apart, then added. -/
def kerForm (x : SX.Idx → EReal) (W : SW.Idx → EReal) (bias : SBias.Idx → EReal) (A B : SLo.Idx → EReal) : SX.Idx → EReal :=
  fun j => ((∑ k : Fin 4096, x (ix3 (j 0) (j 1) k) * W (ix2 (j 2) k))
      + (∑ r : Fin 32, (∑ k : Fin 4096, x (ix3 (j 0) (j 1) k) * B (ix2 k r)) * A (ix2 (j 2) r)) * one)
    + bias (ix1 (j 2))

/-- The reference's arrangement: the corrected weight matrix first, then one product. -/
def refForm (x : SX.Idx → EReal) (W : SW.Idx → EReal) (bias : SBias.Idx → EReal) (A B : SLo.Idx → EReal) : SX.Idx → EReal :=
  fun j => (∑ k : Fin 4096, x (ix3 (j 0) (j 1) k) * (W (ix2 (j 2) k) + (∑ r : Fin 32, A (ix2 (j 2) r) * B (ix2 k r)) * one))
    + bias (ix1 (j 2))

/-- The float word of 1.0 denotes the real number 1. -/
theorem one_eq : one = ((1 : ℝ) : EReal) := by
  unfold one
  simp [Ideal.ofBits, Ideal.ieee, -EReal.coe_mul]; norm_num

/-- A finite sum of real numbers, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two arrangements agree on real inputs. -/
theorem ker_eq_ref (x : SX.Idx → EReal) (W : SW.Idx → EReal) (bias : SBias.Idx → EReal) (A B : SLo.Idx → EReal)
    (hx : ∀ i, ∃ r : ℝ, x i = (r : EReal)) (hW : ∀ i, ∃ r : ℝ, W i = (r : EReal))
    (hA : ∀ i, ∃ r : ℝ, A i = (r : EReal)) (hB : ∀ i, ∃ r : ℝ, B i = (r : EReal)) :
    kerForm x W bias A B = refForm x W bias A B := by
  choose xr hxr using hx
  choose Wr hWr using hW
  choose Ar hAr using hA
  choose Br hBr using hB
  funext j
  simp only [kerForm, refForm, hxr, hWr, hAr, hBr, one_eq]
  simp only [← EReal.coe_mul, ← coe_sum, ← EReal.coe_add]
  congr 2
  simp only [mul_one, mul_add, Finset.sum_add_distrib, Finset.mul_sum, Finset.sum_mul]
  congr 1
  rw [Finset.sum_comm]
  refine Finset.sum_congr rfl fun k _ => Finset.sum_congr rfl fun r _ => ?_
  ring

/-- A sum over 4096 indices is the sum of its four consecutive blocks of 1024. -/
theorem sum_blocks (f : Fin 4096 → EReal) :
    (∑ k : Fin 4096, f k) = ∑ kb : Fin 4, ∑ j : Fin 1024, f ⟨kb.val * 1024 + j.val, by omega⟩ := by
  rw [← Equiv.sum_comp (finProdFinEquiv : Fin 4 × Fin 1024 ≃ Fin 4096) f, Fintype.sum_prod_type]
  refine Finset.sum_congr rfl fun kb _ => Finset.sum_congr rfl fun j _ => ?_
  congr 1
  ext
  simp [finProdFinEquiv]
  omega

end Cert.LoraSpec

end
-- ==== Proof.KernelIdeal.Payloads.lean ====
/-
  The kernel bodies' arithmetic, read at one element, over the extended reals.

  At the ideal values a narrowing format change is the identity, a shape cast to the same shape is the identity, the
  zero word is 0, and a matrix product into the zero accumulator is the plain sum of products over the contracted
  axis. So the first kernel's accumulation step adds, to the running value at `(p, q)`, the sum over `j` of
  `x[p, j] · b[j, q]`; the second kernel's adds the sum over `j` of `x[p, j] · w[q, j]` (both operands contracted
  along their columns); and its last step adds to the accumulated value the rank-32 product `Σ_r xb[p, r] · a[q, r]`
  scaled by the float word of 1.0, and then the bias row at column `q`.
-/
import proofs.«107650_j28853590294649_1_alg».proof.Proof.Gen.KernelIdeal.Skeleton
import proofs.«107650_j28853590294649_1_alg».proof.Proof.LoraSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-! ## The first kernel's product: `[1024, 1024]` by `[1024, 32]`, the left's columns against the right's rows -/

theorem lhs_xb_0 (i : S1024x32.Idx) (c : dot_S1024x1024_S1024x32_S1024x32_1_0_0_1_n_n.contr.Idx) :
    (dot_S1024x1024_S1024x32_S1024x32_1_0_0_1_n_n.lhsIdx i c 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_xb_1 (i : S1024x32.Idx) (c : dot_S1024x1024_S1024x32_S1024x32_1_0_0_1_n_n.contr.Idx) :
    (dot_S1024x1024_S1024x32_S1024x32_1_0_0_1_n_n.lhsIdx i c 1).val = (c ⟨0, by decide⟩).val :=
  dot_S1024x1024_S1024x32_S1024x32_1_0_0_1_n_n.lhsIdx_val_of_single rfl i c
theorem rhs_xb_0 (i : S1024x32.Idx) (c : dot_S1024x1024_S1024x32_S1024x32_1_0_0_1_n_n.contr.Idx) :
    (dot_S1024x1024_S1024x32_S1024x32_1_0_0_1_n_n.rhsIdx i c 0).val = (c ⟨0, by decide⟩).val :=
  dot_S1024x1024_S1024x32_S1024x32_1_0_0_1_n_n.rhsIdx_val_of_single rfl i c
theorem rhs_xb_1 (i : S1024x32.Idx) (c : dot_S1024x1024_S1024x32_S1024x32_1_0_0_1_n_n.contr.Idx) :
    (dot_S1024x1024_S1024x32_S1024x32_1_0_0_1_n_n.rhsIdx i c 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- Into the zero accumulator, the product at `(p, q)` is the sum over `j` of `l[p, j] · r[j, q]`. -/
theorem matmul_xb {φ₁ φ₂ : FTy} (l : FVec Ideal S1024x1024 φ₁) (r : FVec Ideal S1024x32 φ₂) (p : Fin 1024) (q : Fin 32) :
    FloatOps.matmul (F := Ideal) dot_S1024x1024_S1024x32_S1024x32_1_0_0_1_n_n none l r (constant (F := Ideal) S1024x32 .f32 0x00000000#32) (ix2 p q)
      = ∑ j : Fin 1024, l (ix2 p j) * r (ix2 j q) := by
  rw [Ideal.matmul_constant_zero_apply, ← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 p q) ((contrEquiv1 dot_S1024x1024_S1024x32_S1024x32_1_0_0_1_n_n 1024 rfl rfl).symm k) = ix2 p k := funext fun a => Fin.ext (by
    match a with
    | ⟨0, _⟩ => exact lhs_xb_0 _ _
    | ⟨1, _⟩ => exact (lhs_xb_1 _ _).trans hk)
  have er : dot_S1024x1024_S1024x32_S1024x32_1_0_0_1_n_n.rhsIdx (ix2 p q) ((contrEquiv1 dot_S1024x1024_S1024x32_S1024x32_1_0_0_1_n_n 1024 rfl rfl).symm k) = ix2 k q := funext fun a => Fin.ext (by
    match a with
    | ⟨0, _⟩ => exact (rhs_xb_0 _ _).trans hk
    | ⟨1, _⟩ => exact rhs_xb_1 _ _)
  rw [el, er]

/-! ## The second kernel's dense product: `[2048, 1024]` by `[1024, 1024]`, columns against columns -/

theorem lhs_w_0 (i : S2048x1024.Idx) (c : dot_S2048x1024_S1024x1024_S2048x1024_1_1_0_0_n_n.contr.Idx) :
    (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_w_1 (i : S2048x1024.Idx) (c : dot_S2048x1024_S1024x1024_S2048x1024_1_1_0_0_n_n.contr.Idx) :
    (dot_S2048x1024_S1024x1024_S2048x1024_1_1_0_0_n_n.lhsIdx i c 1).val = (c ⟨0, by decide⟩).val :=
  dot_S2048x1024_S1024x1024_S2048x1024_1_1_0_0_n_n.lhsIdx_val_of_single rfl i c
theorem rhs_w_0 (i : S2048x1024.Idx) (c : dot_S2048x1024_S1024x1024_S2048x1024_1_1_0_0_n_n.contr.Idx) :
    (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_w_1 (i : S2048x1024.Idx) (c : dot_S2048x1024_S1024x1024_S2048x1024_1_1_0_0_n_n.contr.Idx) :
    (dot_S2048x1024_S1024x1024_S2048x1024_1_1_0_0_n_n.rhsIdx i c 1).val = (c ⟨0, by decide⟩).val :=
  dot_S2048x1024_S1024x1024_S2048x1024_1_1_0_0_n_n.rhsIdx_val_of_single rfl i c

/-- Into the zero accumulator, the product at `(p, q)` is the sum over `j` of `l[p, j] · r[q, j]`. -/
theorem matmul_w {φ₁ φ₂ : FTy} (l : FVec Ideal S2048x1024 φ₁) (r : FVec Ideal S1024x1024 φ₂) (p : Fin 2048) (q : Fin 1024) :
    FloatOps.matmul (F := Ideal) dot_S2048x1024_S1024x1024_S2048x1024_1_1_0_0_n_n none l r (constant (F := Ideal) S2048x1024 .f32 0x00000000#32) (ix2 p q)
      = ∑ j : Fin 1024, l (ix2 p j) * r (ix2 q j) := by
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact lhs_w_0 _ _
    | ⟨1, _⟩ => exact (lhs_w_1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact rhs_w_0 _ _
    | ⟨1, _⟩ => exact (rhs_w_1 _ _).trans hk)
  rw [el, er]

/-! ## The second kernel's low-rank product: `[2048, 32]` by `[1024, 32]`, columns against columns -/

theorem lhs_lo_0 (i : S2048x1024.Idx) (c : dot_S2048x32_S1024x32_S2048x1024_1_1_0_0_n_n.contr.Idx) :
    (dot_S2048x32_S1024x32_S2048x1024_1_1_0_0_n_n.lhsIdx i c 0).val = (i 0).val := by
  unfold DotDims.lhsIdx
  rw [dif_neg (show ¬(0 : Fin S2048x32.rank) ∈ dot_S2048x32_S1024x32_S2048x1024_1_1_0_0_n_n.lhsBatch by decide), dif_pos (show (0 : Fin S2048x32.rank) ∈ dot_S2048x32_S1024x32_S2048x1024_1_1_0_0_n_n.lhsNonContracting by decide)]
  rfl
theorem lhs_lo_1 (i : S2048x1024.Idx) (c : dot_S2048x32_S1024x32_S2048x1024_1_1_0_0_n_n.contr.Idx) :
    (dot_S2048x32_S1024x32_S2048x1024_1_1_0_0_n_n.lhsIdx i c 1).val = (c ⟨0, by decide⟩).val :=
  dot_S2048x32_S1024x32_S2048x1024_1_1_0_0_n_n.lhsIdx_val_of_single rfl i c
theorem rhs_lo_0 (i : S2048x1024.Idx) (c : dot_S2048x32_S1024x32_S2048x1024_1_1_0_0_n_n.contr.Idx) :
    (dot_S2048x32_S1024x32_S2048x1024_1_1_0_0_n_n.rhsIdx i c 0).val = (i 1).val := by
  unfold DotDims.rhsIdx
  rw [dif_neg (show ¬(0 : Fin S1024x32.rank) ∈ dot_S2048x32_S1024x32_S2048x1024_1_1_0_0_n_n.rhsBatch by decide), dif_pos (show (0 : Fin S1024x32.rank) ∈ dot_S2048x32_S1024x32_S2048x1024_1_1_0_0_n_n.rhsNonContracting by decide)]
  rfl
theorem rhs_lo_1 (i : S2048x1024.Idx) (c : dot_S2048x32_S1024x32_S2048x1024_1_1_0_0_n_n.contr.Idx) :
    (dot_S2048x32_S1024x32_S2048x1024_1_1_0_0_n_n.rhsIdx i c 1).val = (c ⟨0, by decide⟩).val :=
  dot_S2048x32_S1024x32_S2048x1024_1_1_0_0_n_n.rhsIdx_val_of_single rfl i c

/-- Into the zero accumulator, the product at `(p, q)` is the sum over `r` of `l[p, r] · m[q, r]`. -/
theorem matmul_lo {φ₁ φ₂ : FTy} (l : FVec Ideal S2048x32 φ₁) (m : FVec Ideal S1024x32 φ₂) (p : Fin 2048) (q : Fin 1024) :
    FloatOps.matmul (F := Ideal) dot_S2048x32_S1024x32_S2048x1024_1_1_0_0_n_n none l m (constant (F := Ideal) S2048x1024 .f32 0x00000000#32) (ix2 p q)
      = ∑ r : Fin 32, l (ix2 p r) * m (ix2 q r) := by
  rw [Ideal.matmul_constant_zero_apply, ← Equiv.sum_comp (contrEquiv1 dot_S2048x32_S1024x32_S2048x1024_1_1_0_0_n_n 32 rfl rfl).symm]
  refine Finset.sum_congr rfl fun k _ => ?_
  have hk := contrEquiv1_symm_val dot_S2048x32_S1024x32_S2048x1024_1_1_0_0_n_n 32 rfl rfl k
  have el : dot_S2048x32_S1024x32_S2048x1024_1_1_0_0_n_n.lhsIdx (ix2 p q) ((contrEquiv1 dot_S2048x32_S1024x32_S2048x1024_1_1_0_0_n_n 32 rfl rfl).symm k) = ix2 p k := funext fun a => Fin.ext (by
    match a with
    | ⟨0, _⟩ => exact lhs_lo_0 _ _
    | ⟨1, _⟩ => exact (lhs_lo_1 _ _).trans hk)
  have er : dot_S2048x32_S1024x32_S2048x1024_1_1_0_0_n_n.rhsIdx (ix2 p q) ((contrEquiv1 dot_S2048x32_S1024x32_S2048x1024_1_1_0_0_n_n 32 rfl rfl).symm k) = ix2 q k := funext fun a => Fin.ext (by
    match a with
    | ⟨0, _⟩ => exact rhs_lo_0 _ _
    | ⟨1, _⟩ => exact (rhs_lo_1 _ _).trans hk)
  rw [el, er]

/-! ## The payloads -/

/-- The first kernel's initial store writes zeros. -/
theorem pay0_zero (j : S1024x32.Idx) : k0_pay1 (F := Ideal) j = 0 := by
  unfold k0_pay1
  simp only [shapeCast_self]
  exact Ideal.ofBits_zero_f32

/-- The first kernel's accumulation step at `(p, q)`. -/
theorem pay0_acc (x0 : Vec Ideal S1024x1024 .f32) (x1 xs : Vec Ideal S1024x32 .f32) (p : Fin 1024) (q : Fin 32) :
    k0_pay2 (F := Ideal) x0 x1 xs (ix2 p q) = xs (ix2 p q) + ∑ j : Fin 1024, x0 (ix2 p j) * x1 (ix2 j q) := by
  unfold k0_pay2
  simp only [shapeCast_self]
  exact congrArg (xs (ix2 p q) + ·) (matmul_xb (φ₁ := .bf16) (φ₂ := .bf16) x0 x1 p q)

/-- The second kernel's initial store writes zeros. -/
theorem pay1_zero (j : S2048x1024.Idx) : k1_pay1 (F := Ideal) j = 0 := by
  unfold k1_pay1
  simp only [shapeCast_self]
  exact Ideal.ofBits_zero_f32

/-- The second kernel's accumulation step at `(p, q)`. -/
theorem pay1_acc (x0 : Vec Ideal S2048x1024 .f32) (w : Vec Ideal S1024x1024 .f32) (xs : Vec Ideal S2048x1024 .f32) (p : Fin 2048) (q : Fin 1024) :
    k1_pay2 (F := Ideal) x0 w xs (ix2 p q) = xs (ix2 p q) + ∑ j : Fin 1024, x0 (ix2 p j) * w (ix2 q j) := by
  unfold k1_pay2
  simp only [shapeCast_self]
  exact congrArg (xs (ix2 p q) + ·) (matmul_w (φ₁ := .bf16) (φ₂ := .bf16) x0 w p q)

/-- The second kernel's last step at `(p, q)`: the scaled low-rank correction and the bias join the accumulated value. -/
theorem pay1_out (xb : Vec Ideal S2048x32 .f32) (a : Vec Ideal S1024x32 .f32) (acc : Vec Ideal S2048x1024 .f32) (bias : Vec Ideal S1x1024 .f32) (p : Fin 2048) (q : Fin 1024) :
    k1_pay3 (F := Ideal) xb a acc bias (ix2 p q) = (acc (ix2 p q) + (∑ r : Fin 32, xb (ix2 p r) * a (ix2 q r)) * Cert.LoraSpec.one) + bias (ix2 (0 : Fin 1) q) := by
  unfold k1_pay3
  simp only [shapeCast_self]
  exact congrArg₂ (· + ·)
    (congrArg (acc (ix2 p q) + ·) (congrArg (· * Cert.LoraSpec.one) (matmul_lo (φ₁ := .f32) (φ₂ := .f32) xb a p q)))
    (broadcastTo_1b_ab_apply bias broadcasts_S1x1024_S2048x1024 p q)

end Cert.KernelIdeal.Payloads

end
-- ==== Proof.KernelIdeal.Xb.Value.lean ====
/-
  What the projection region leaves in its output array, over the extended reals: the product of the flattened input by the
  rank-32 factor, summed over the whole contracted axis.

  The grid is 8 row blocks by 4 blocks of the contracted axis, point t at (t / 4, t % 4). The accumulator after point n holds,
  at row p and column q of its 1024x32 block, the products of row (n / 4) * 1024 + p summed over the contracted blocks
  0 .. n % 4: zero plus the first block's at a first point, the point before's value plus this block's elsewhere (by
  induction on the point). At a point with t % 4 = 3 the output block is written back at the accumulator's value, all four
  contracted blocks, which is the whole sum; those eight points' blocks tile the array.
-/
import proofs.«107650_j28853590294649_1_alg».proof.Proof.KernelIdeal.Xb.Pieces
import proofs.«107650_j28853590294649_1_alg».proof.Proof.KernelIdeal.Payloads
import proofs.«107650_j28853590294649_1_alg».proof.Proof.LoraSpec
import Idealize.ShloMosaic.Lib.Pipeline.Value
import Idealize.ShloMosaic.Lib.ValueIdx

set_option maxRecDepth 16384

noncomputable section

namespace Cert.KernelIdeal.Xb

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- x · B over the whole contracted axis. -/
def xbOf (X : S8192x4096.Idx → EReal) (B : S4096x32.Idx → EReal) : S8192x32.Idx → EReal :=
  fun j => ∑ k : Fin 4096, X (ix2 (j 0) k) * B (ix2 k (j 1))

/-- The region's result, as contents of its output array. -/
abbrev result (c : Dev nD) : Buf (Elt Ideal) ((c : Thread nD τ).loc main_v2) := xbOf (V c main_v0) (V c main_arg4)

/-! ## Entries by number -/

/-- Entry (r, k) of a matrix by the numbers of its row and column; zero outside the matrix. -/
def at2 {a b : ℕ} (M : (⟨2, ![a, b]⟩ : Shape).Idx → EReal) (r k : ℕ) : EReal :=
  if h : r < a ∧ k < b then M (ix2 ⟨r, h.1⟩ ⟨k, h.2⟩) else 0

theorem at2_of_lt {a b : ℕ} (M : (⟨2, ![a, b]⟩ : Shape).Idx → EReal) (r k : ℕ) (hr : r < a) (hk : k < b) :
    at2 M r k = M (ix2 ⟨r, hr⟩ ⟨k, hk⟩) := dif_pos ⟨hr, hk⟩

/-- Row r of X against column q of B over contracted block kb. -/
def part (X : S8192x4096.Idx → EReal) (B : S4096x32.Idx → EReal) (r : ℕ) (q : Fin 32) (kb : ℕ) : EReal :=
  ∑ j : Fin 1024, at2 X r (kb * 1024 + j.val) * at2 B (kb * 1024 + j.val) q.val

/-- The whole contracted sum is the sum of its four blocks. -/
theorem sum_parts (X : S8192x4096.Idx → EReal) (B : S4096x32.Idx → EReal) (r : Fin 8192) (q : Fin 32) :
    ∑ kb ∈ Finset.range 4, part X B r.val q kb = ∑ k : Fin 4096, X (ix2 r k) * B (ix2 k q) := by
  rw [Cert.LoraSpec.sum_blocks, Finset.sum_range]
  refine Finset.sum_congr rfl fun kb _ => Finset.sum_congr rfl fun j _ => ?_
  have hk : kb.val * 1024 + j.val < 4096 := by have := kb.isLt; have := j.isLt; omega
  rw [at2_of_lt X _ _ r.isLt hk, at2_of_lt B _ _ hk q.isLt]

/-! ## The blocks at a point -/

/-- The printed index maps over the grid: the row block is t / 4, the contracted block t % 4. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

abbrev xblk (c : Dev nD) (t : Fin cfg0.N) : Vec Ideal S1024x1024 .f32 := iblk V c 0 t
abbrev bblk (c : Dev nD) (t : Fin cfg0.N) : Vec Ideal S1024x32 .f32 := iblk V c 1 t

/-- The block of x at point t, entry by entry. -/
theorem xblk_apply (c : Dev nD) (t : Fin cfg0.N) (p j : Fin 1024) :
    xblk V c t (ix2 p j) = at2 (V c main_v0) (t.val / 4 * 1024 + p.val) (t.val % 4 * 1024 + j.val) := by
  have hN : t.val < 32 := lt_of_lt_of_eq t.isLt N_0
  obtain ⟨e0, e1, -⟩ := idx_facts t
  rw [at2_of_lt _ _ _ (by omega) (by omega)]
  show V c main_v0 (((cfg0.win 0).blk t).view.emb (ix2 p j)) = _
  refine congrArg (V c main_v0) ?_
  funext a; apply Fin.ext
  match a with
  | ⟨0, _⟩ => show win0_0.index t (0 : Fin 2) * 1024 + 1 * p.val = t.val / 4 * 1024 + p.val; rw [e0]; omega
  | ⟨1, _⟩ => show win0_0.index t (1 : Fin 2) * 1024 + 1 * j.val = t.val % 4 * 1024 + j.val; rw [e1]; omega

/-- The block of B at point t, entry by entry. -/
theorem bblk_apply (c : Dev nD) (t : Fin cfg0.N) (j : Fin 1024) (q : Fin 32) :
    bblk V c t (ix2 j q) = at2 (V c main_arg4) (t.val % 4 * 1024 + j.val) q.val := by
  have hN : t.val < 32 := lt_of_lt_of_eq t.isLt N_0
  obtain ⟨-, -, e0, e1, -⟩ := idx_facts t
  rw [at2_of_lt _ _ _ (by omega) q.isLt]
  show V c main_arg4 (((cfg0.win 1).blk t).view.emb (ix2 j q)) = _
  refine congrArg (V c main_arg4) ?_
  funext a; apply Fin.ext
  match a with
  | ⟨0, _⟩ => show win0_1.index t (0 : Fin 2) * 1024 + 1 * j.val = t.val % 4 * 1024 + j.val; rw [e0]; omega
  | ⟨1, _⟩ => show win0_1.index t (1 : Fin 2) * 32 + 1 * q.val = q.val; rw [e1]; omega

/-! ## The accumulator, point by point -/

/-- One point's update at an entry: the value before plus this point's block of products. -/
theorem step_apply (c : Dev nD) (n : ℕ) (h : n < cfg0.N) (xs : Vec Ideal S1024x32 .f32) (p : Fin 1024) (q : Fin 32) :
    k0_pay2 (F := Ideal) (xblk V c ⟨n, h⟩) (bblk V c ⟨n, h⟩) xs (ix2 p q)
      = xs (ix2 p q) + part (V c main_v0) (V c main_arg4) (n / 4 * 1024 + p.val) q (n % 4) := by
  rw [Payloads.pay0_acc]
  unfold part
  refine congrArg (xs (ix2 p q) + ·) (Finset.sum_congr rfl fun j _ => ?_)
  rw [xblk_apply, bblk_apply]

/-- The accumulator after point n: the products of its row block's rows over the contracted blocks 0 .. n % 4. -/
theorem accAt_apply (c : Dev nD) : ∀ (n : ℕ) (h : n < cfg0.N) (p : Fin 1024) (q : Fin 32),
    (accAt V c n h : Vec Ideal S1024x32 .f32) (ix2 p q)
      = ∑ kb ∈ Finset.range (n % 4 + 1), part (V c main_v0) (V c main_arg4) (n / 4 * 1024 + p.val) q kb
  | 0, h, p, q => by
    have e := accAt_first V c ⟨0, h⟩ (Nat.zero_mod 4) (by dsimp only; omega)
    rw [show accAt V c 0 h = _ from e, accFirst_eq]
    rw [step_apply V c 0 h _ p q, Payloads.pay0_zero, zero_add]
    exact (Finset.sum_range_one _).symm
  | n + 1, h, p, q => by
    have hN : n + 1 < 32 := lt_of_lt_of_eq h N_0
    by_cases h0 : (n + 1) % 4 = 0
    · have e := accAt_first V c ⟨n + 1, h⟩ h0 (by dsimp only; omega)
      rw [show accAt V c (n + 1) h = _ from e, accFirst_eq]
      rw [step_apply V c (n + 1) h _ p q, Payloads.pay0_zero, zero_add, h0, Finset.sum_range_one]
    · have d : (n + 1) / 4 = n / 4 := by omega
      have m : (n + 1) % 4 = n % 4 + 1 := by omega
      by_cases h1 : (n + 1) % 4 = 3
      · have e := accAt_last V c ⟨n + 1, h⟩ h0 h1
        rw [show accAt V c (n + 1) h = _ from e, accLast_eq]
        rw [step_apply V c (n + 1) h _ p q]
        show accAt V c n _ (ix2 p q) + _ = _
        rw [accAt_apply c n _ p q, m, d, Finset.sum_range_succ _ (n % 4 + 1)]
      · have e := accAt_mid V c ⟨n + 1, h⟩ h0 h1
        rw [show accAt V c (n + 1) h = _ from e, accMid_eq]
        rw [step_apply V c (n + 1) h _ p q]
        show accAt V c n _ (ix2 p q) + _ = _
        rw [accAt_apply c n _ p q, m, d, Finset.sum_range_succ _ (n % 4 + 1)]

/-! ## What a flushing point writes back -/

/-- Where the output block is stored, it is stored at the accumulator's value. -/
theorem outAt_eq_accAt (c : Dev nD) (t : Fin cfg0.N) (h3 : t.val % 4 = 3) : outAt V c t = accAt V c t.val t.isLt := by
  have h0 : ¬t.val % 4 = 0 := by omega
  rw [outAt_last V c t h0 h3, outLast_eq, accAt_last V c t h0 h3, accLast_eq]

/-- Where an entry of point t's output block sits in the array. -/
theorem out_emb (t : Fin cfg0.N) (p : Fin 1024) (q : Fin 32) (hr : t.val / 4 * 1024 + p.val < 8192) :
    ((cfg0.win 2).blk t).view.emb (ix2 p q) = (ix2 ⟨t.val / 4 * 1024 + p.val, hr⟩ q : S8192x32.Idx) := by
  obtain ⟨-, -, -, -, e0, e1⟩ := idx_facts t
  funext a; apply Fin.ext
  match a with
  | ⟨0, _⟩ => show win0_2.index t (0 : Fin 2) * 1024 + 1 * p.val = t.val / 4 * 1024 + p.val; rw [e0]; omega
  | ⟨1, _⟩ => show win0_2.index t (1 : Fin 2) * 32 + 1 * q.val = q.val; rw [e1]; omega

/-- What a point with t % 4 = 3 writes back is its block of the product. -/
theorem flushed_eq (c : Dev nD) (t : Fin cfg0.N) (hf : (cfg0.win 2).flush t = true) :
    (dat V c).flushed 2 t = ((cfg0.win 2).blk t).view.read (Elt Ideal) (result V c) := by
  have h3 : t.val % 4 = 3 := (flush0_2 t).mp hf
  have hN : t.val < 32 := lt_of_lt_of_eq t.isLt N_0
  show (cfg0.win 2).cut (grid0.coords t) ((dat V c).after 2 t) = _
  rw [after_out, outAt_eq_accAt V c t h3]
  funext y
  obtain ⟨p, q, rfl⟩ : ∃ (p : Fin 1024) (q : Fin 32), y = ix2 p q := ⟨y 0, y 1, eq_ix2 y⟩
  show (accAt V c t.val t.isLt : Vec Ideal S1024x32 .f32) (ix2 p q) = result V c (((cfg0.win 2).blk t).view.emb (ix2 p q))
  rw [accAt_apply V c t.val t.isLt p q, out_emb t p q (by omega), h3]
  exact sum_parts (V c main_v0) (V c main_arg4) ⟨_, _⟩ q

/-! ## The cover, and the array -/

/-- Row r of the array is in the block written back at point 4 * (r / 1024) + 3. -/
theorem cover (i : S8192x32.Idx) :
    ∃ t : Fin cfg0.N, (cfg0.win 2).flush t = true ∧ i ∈ ((cfg0.win 2).blk t).view.set := by
  have hi0 : (i 0).val < 8192 := idx2_lt0 i
  have hi1 : (i 1).val < 32 := idx2_lt1 i
  have hN : cfg0.N = 32 := N_0
  obtain ⟨t, tv⟩ : ∃ t : Fin cfg0.N, t.val = 4 * ((i 0).val / 1024) + 3 := ⟨⟨4 * ((i 0).val / 1024) + 3, by rw [hN]; omega⟩, rfl⟩
  obtain ⟨-, -, -, -, e0, e1⟩ := idx_facts t
  refine ⟨t, (flush0_2 t).mpr (by rw [tv]; omega), ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0, tv]; omega
  | ⟨1, _⟩ =>
    show win0_2.index t (1 : Fin 2) * 32 ≤ (i 1).val ∧ (i 1).val < win0_2.index t (1 : Fin 2) * 32 + 32
    rw [e1]; omega

/-- The output array after the region: the product over the whole contracted axis. -/
theorem final_out (c : Dev nD) : (dat (F := Ideal) V c).arrAt 2 cfg0.N = result V c :=
  (dat V c).arrAt_eq_of_cover 2 (result V c) (flushed_eq V c) cover

end Cert.KernelIdeal.Xb

end
-- ==== Proof.KernelIdeal.Fused.Pieces.lean ====
/-
  The fused kernel region's found pieces, read back as values. Every store of the body goes through the rectangle at
  offset (0, 0) that is the whole 2048x1024 buffer, so the contents a run's pieces leave are the payload of the last store;
  a load of the accumulator after a store in the same run reads that store's payload back. Hence: where the contracted
  block is the first the accumulator ends at the block product added to the zero block; elsewhere at the block product
  added to what the accumulator held; and the output block, stored only at the last contracted block, receives that value
  with the rank-32 correction and the bias added.
-/
import proofs.«107650_j28853590294649_1_alg».proof.Proof.KernelIdeal.Fused.Data
import Idealize.ShloMosaic.Lib.Pipeline.Value

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of every rectangle the body stores through or loads from is zero. -/
theorem hz : (![0, 0] : Fin 2 → Nat) = fun _ => 0 := funext fun a => by fin_cases a <;> rfl

section Cases
variable (c : Dev nD) (i : grid1.Coords) (arg3 : Memref sig .tc .vmem S2048x1024 .f32) (harg3 : arg3.IsWhole) (arg4 : Memref sig .tc .vmem S1024x1024 .f32) (harg4 : arg4.IsWhole) (arg5 : Memref sig .tc .vmem S2048x32 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole)

/-- Where the contracted block is the first, the accumulator ends at the block product added to the zero block: the
    reset's store covers the buffer, the load after it reads the zero block back, and the update's store covers it again. -/
theorem accFirst_eq (hc0 : isFirst i) (hc1 : ¬isLast i) (x0 : Vec F S2048x1024 .f32) (x1 : Vec F S1024x1024 .f32) :
    accFirst c i arg3 harg3 arg4 harg4 arg5 harg5 arg6 harg6 arg7 harg7 arg8 harg8 arg9 harg9 hc0 hc1 x0 x1 = k1_pay2 x0 x1 (k1_pay1 (F := F)) := by
  unfold accFirst
  rw [View.read_writes_eq_canon _ _ _ (cover_accFirst c i arg3 harg3 arg4 harg4 arg5 harg5 arg6 harg6 arg7 harg7 arg8 harg8 arg9 harg9 hc0 hc1 x0 x1)]
  unfold runFirst
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz, View.ld_unit_zero (S := S1024x1024) hz]

/-- At an inner contracted block the accumulator ends at the block product added to what it held: one covering store. -/
theorem accMid_eq (hc0 : ¬isFirst i) (hc1 : ¬isLast i) (x0 : Vec F S2048x1024 .f32) (x1 : Vec F S1024x1024 .f32) (xs : Vec F S2048x1024 .f32) :
    accMid c i arg3 harg3 arg4 harg4 arg5 harg5 arg6 harg6 arg7 harg7 arg8 harg8 arg9 harg9 hc0 hc1 x0 x1 xs = k1_pay2 x0 x1 xs := by
  unfold accMid
  rw [View.read_writes_eq_canon _ _ _ (cover_accMid c i arg3 harg3 arg4 harg4 arg5 harg5 arg6 harg6 arg7 harg7 arg8 harg8 arg9 harg9 hc0 hc1 x0 x1 xs)]
  unfold runMid
  dsimp only
  rw [View.canon_unit_zero (S := S2048x1024) hz]
  simp only [View.readAt_eq_ld, harg3.read_unread, harg4.read_unread, harg9.read_unread, View.ld_unit_zero (S := S2048x1024) hz, View.ld_unit_zero (S := S1024x1024) hz]

/-- At the last contracted block the accumulator ends at the same value as at an inner one. -/
theorem accLast_eq (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) :
    accLast c i arg3 harg3 arg4 harg4 arg5 harg5 arg6 harg6 arg7 harg7 arg8 harg8 arg9 harg9 hc0 hc1 x0 x1 x2 x3 x4 xs = k1_pay2 x0 x1 xs := by
  unfold accLast
  rw [View.read_writes_eq_canon _ _ _ (cover_accLast c i arg3 harg3 arg4 harg4 arg5 harg5 arg6 harg6 arg7 harg7 arg8 harg8 arg9 harg9 hc0 hc1 x0 x1 x2 x3 x4 xs)]
  unfold runLast
  dsimp only
  sl_unfold_words
  rw [View.canon_unit_zero (S := S2048x1024) hz]
  simp only [View.readAt_eq_ld, harg3.read_unread, harg4.read_unread, harg9.read_unread, View.ld_unit_zero (S := S2048x1024) hz, View.ld_unit_zero (S := S1024x1024) hz]

/-- At the last contracted block the output block receives the accumulator's final value, read back after its store, with
    the rank-32 correction and the bias added. -/
theorem outLast_eq (hc0 : ¬isFirst i) (hc1 : isLast i) (x0 : Vec F S2048x1024 .f32) (x1 : Vec F S1024x1024 .f32) (x2 : Vec F S2048x32 .f32) (x3 : Vec F S1024x32 .f32) (x4 : Vec F S1x1024 .f32) (xs : Vec F S2048x1024 .f32) :
    outLast c i arg3 harg3 arg4 harg4 arg5 harg5 arg6 harg6 arg7 harg7 arg8 harg8 arg9 harg9 hc0 hc1 x0 x1 x2 x3 x4 xs = k1_pay3 x2 x3 (k1_pay2 x0 x1 xs) x4 := by
  unfold outLast
  rw [View.read_writes_eq_canon _ _ _ (cover_outLast c i arg3 harg3 arg4 harg4 arg5 harg5 arg6 harg6 arg7 harg7 arg8 harg8 arg9 harg9 hc0 hc1 x0 x1 x2 x3 x4 xs)]
  unfold runLast
  dsimp only
  sl_unfold_words
  rw [View.canon_unit_zero (S := S2048x1024) hz, View.readCov_unit_zero (S := S2048x1024) _ hz]
  simp only [View.readAt_eq_ld, harg3.read_unread, harg4.read_unread, harg5.read_unread, harg6.read_unread, harg7.read_unread, harg9.read_unread, View.ld_unit_zero (S := S2048x1024) hz, View.ld_unit_zero (S := S1024x1024) hz, View.ld_unit_zero (S := S2048x32) hz, View.ld_unit_zero (S := S1024x32) hz, View.ld_unit_zero (S := S1x1024) hz]

end Cases

end Cert.KernelIdeal.Fused

end
-- ==== Proof.KernelIdeal.Fused.Value.lean ====
/-
  What the fused region leaves in its output array, over the extended reals.

  The grid's 64 points are 4 row blocks by 4 column blocks by 4 blocks of the contracted axis, the last running fastest:
  point `t` works on rows `(t / 16) · 2048 + p`, output columns `((t / 4) % 4) · 1024 + q` and contracted positions
  `(t % 4) · 1024 + j`. By induction on the point, the accumulator after point `n` holds at `(p, q)` the sum of the
  block products of the contracted blocks `0 … n % 4` (the row and column blocks do not move while `n % 4` runs from
  0 to 3). At a point whose contracted block is the last the body stores, in the output block, that sum (by then over the
  whole contracted axis) plus the scaled rank-32 correction plus the bias: the element of `x·Wᵀ + (xb·Aᵀ)·one + bias`
  at the block's place. These 16 blocks tile the output array.
-/
import proofs.«107650_j28853590294649_1_alg».proof.Proof.KernelIdeal.Fused.Pieces
import proofs.«107650_j28853590294649_1_alg».proof.Proof.KernelIdeal.Payloads
import proofs.«107650_j28853590294649_1_alg».proof.Proof.LoraSpec
import Idealize.ShloMosaic.Lib.Pipeline.Value
import Idealize.ShloMosaic.Lib.ValueIdx

set_option maxRecDepth 16384

noncomputable section

namespace Cert.KernelIdeal.Fused

open Idealize.ShloMosaic Idealize.ShloMosaic.TcCoe Idealize.ShloMosaic.ValueIdx
open Idealize.ShloMosaic.Pipeline (Dat)
open Cert.KernelIdeal Cert.KernelIdeal.Gen Cert.KernelIdeal.Payloads

variable (V : (c : Dev nD) → (b : Ref sig .tc) → Buf (Elt Ideal) ((c : Thread nD τ).loc b))

/-- x·Wᵀ + (xb·Aᵀ)·one + bias over the whole contracted axes. -/
def yOf (X : S8192x4096.Idx → EReal) (W : S4096x4096.Idx → EReal) (XB : S8192x32.Idx → EReal) (A : S4096x32.Idx → EReal) (bias2 : S1x4096.Idx → EReal) : S8192x4096.Idx → EReal :=
  fun j => ((∑ k : Fin 4096, X (ix2 (j 0) k) * W (ix2 (j 1) k)) + (∑ r : Fin 32, XB (ix2 (j 0) r) * A (ix2 (j 1) r)) * Cert.LoraSpec.one) + bias2 (ix2 (0 : Fin 1) (j 1))

/-- The output array the region is to leave. -/
abbrev result (c : Dev nD) : Buf (Elt Ideal) ((c : Thread nD τ).loc main_v3) := yOf (V c main_v0) (V c main_arg1) (V c main_v2) (V c main_arg3) (V c main_v1)

/-! ## Where each window's block sits -/

/-- The printed index maps over the linear point, decided once over the grid. -/
theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = 0
    ∧ win1_3.index t (0 : Fin 2) = t.val / 4 % 4 ∧ win1_3.index t (1 : Fin 2) = 0
    ∧ win1_4.index t (0 : Fin 2) = 0 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-! ## Entries at natural coordinates -/

/-- An array's entry at natural coordinates, zero outside the array: block offsets are then sums of naturals. -/
def at2 {a b : ℕ} (M : (⟨2, ![a, b]⟩ : Shape).Idx → EReal) (r k : ℕ) : EReal :=
  if h : r < a ∧ k < b then M (ix2 ⟨r, h.1⟩ ⟨k, h.2⟩) else 0

theorem at2_val {a b : ℕ} (M : (⟨2, ![a, b]⟩ : Shape).Idx → EReal) (r : Fin a) (k : Fin b) :
    at2 M r.val k.val = M (ix2 r k) := by
  unfold at2; rw [dif_pos ⟨r.isLt, k.isLt⟩]

/-- An entry at an index whose coordinates are known as naturals. -/
theorem at2_of_eq {a b : ℕ} (M : (⟨2, ![a, b]⟩ : Shape).Idx → EReal) (i : (⟨2, ![a, b]⟩ : Shape).Idx) (r k : ℕ)
    (h0 : (i 0).val = r) (h1 : (i 1).val = k) : M i = at2 M r k := by
  subst h0 h1
  exact (congrArg M (eq_ix2 i)).trans (at2_val M (i 0) (i 1)).symm

/-! ## Block reads at explicit coordinates -/

/-- The block of `x` at point `t`: rows from `(t / 16) · 2048`, contracted positions from `(t % 4) · 1024`. -/
theorem read_x (c : Dev nD) (t : Fin cfg1.N) (p : Fin 2048) (j : Fin 1024) :
    (iblk V c 0 t : S2048x1024.Idx → EReal) (ix2 p j)
      = at2 (V c main_v0 : S8192x4096.Idx → EReal) (t.val / 16 * 2048 + p.val) (t.val % 4 * 1024 + j.val) := by
  obtain ⟨e0, e1, -⟩ := idx_facts t
  refine at2_of_eq (V c main_v0 : S8192x4096.Idx → EReal) _ _ _ ?_ ?_
  · show win1_0.index t (0 : Fin 2) * 2048 + 1 * p.val = _
    rw [e0]; omega
  · show win1_0.index t (1 : Fin 2) * 1024 + 1 * j.val = _
    rw [e1]; omega

/-- The block of `W` at point `t`: rows from `((t / 4) % 4) · 1024`, contracted positions from `(t % 4) · 1024`. -/
theorem read_w (c : Dev nD) (t : Fin cfg1.N) (q : Fin 1024) (j : Fin 1024) :
    (iblk V c 1 t : S1024x1024.Idx → EReal) (ix2 q j)
      = at2 (V c main_arg1 : S4096x4096.Idx → EReal) (t.val / 4 % 4 * 1024 + q.val) (t.val % 4 * 1024 + j.val) := by
  obtain ⟨-, -, e0, e1, -⟩ := idx_facts t
  refine at2_of_eq (V c main_arg1 : S4096x4096.Idx → EReal) _ _ _ ?_ ?_
  · show win1_1.index t (0 : Fin 2) * 1024 + 1 * q.val = _
    rw [e0]; omega
  · show win1_1.index t (1 : Fin 2) * 1024 + 1 * j.val = _
    rw [e1]; omega

/-- The block of the projection `xb` at point `t`: rows from `(t / 16) · 2048`, all 32 columns. -/
theorem read_xb (c : Dev nD) (t : Fin cfg1.N) (p : Fin 2048) (r : Fin 32) :
    (iblk V c 2 t : S2048x32.Idx → EReal) (ix2 p r)
      = at2 (V c main_v2 : S8192x32.Idx → EReal) (t.val / 16 * 2048 + p.val) r.val := by
  obtain ⟨-, -, -, -, e0, e1, -⟩ := idx_facts t
  refine at2_of_eq (V c main_v2 : S8192x32.Idx → EReal) _ _ _ ?_ ?_
  · show win1_2.index t (0 : Fin 2) * 2048 + 1 * p.val = _
    rw [e0]; omega
  · show win1_2.index t (1 : Fin 2) * 32 + 1 * r.val = _
    rw [e1]; omega

/-- The block of `A` at point `t`: rows from `((t / 4) % 4) · 1024`, all 32 columns. -/
theorem read_a (c : Dev nD) (t : Fin cfg1.N) (q : Fin 1024) (r : Fin 32) :
    (iblk V c 3 t : S1024x32.Idx → EReal) (ix2 q r)
      = at2 (V c main_arg3 : S4096x32.Idx → EReal) (t.val / 4 % 4 * 1024 + q.val) r.val := by
  obtain ⟨-, -, -, -, -, -, e0, e1, -⟩ := idx_facts t
  refine at2_of_eq (V c main_arg3 : S4096x32.Idx → EReal) _ _ _ ?_ ?_
  · show win1_3.index t (0 : Fin 2) * 1024 + 1 * q.val = _
    rw [e0]; omega
  · show win1_3.index t (1 : Fin 2) * 32 + 1 * r.val = _
    rw [e1]; omega

/-- The block of the bias row at point `t`: its one row, columns from `((t / 4) % 4) · 1024`. -/
theorem read_bias (c : Dev nD) (t : Fin cfg1.N) (q : Fin 1024) :
    (iblk V c 4 t : S1x1024.Idx → EReal) (ix2 (0 : Fin 1) q)
      = at2 (V c main_v1 : S1x4096.Idx → EReal) 0 (t.val / 4 % 4 * 1024 + q.val) := by
  obtain ⟨-, -, -, -, -, -, -, -, e0, e1, -⟩ := idx_facts t
  refine at2_of_eq (V c main_v1 : S1x4096.Idx → EReal) _ _ _ ?_ ?_
  · show win1_4.index t (0 : Fin 2) * 1 + 1 * (0 : Fin 1).val = _
    rw [e0]; rfl
  · show win1_4.index t (1 : Fin 2) * 1024 + 1 * q.val = _
    rw [e1]; omega

/-! ## The accumulator after each point -/

/-- Row `r` of `x` against row `o` of `W` over the contracted block `kb`. -/
def blockTerm (X : S8192x4096.Idx → EReal) (W : S4096x4096.Idx → EReal) (r o kb : ℕ) : EReal :=
  ∑ j : Fin 1024, at2 X r (kb * 1024 + j.val) * at2 W o (kb * 1024 + j.val)

/-- One accumulation step at point `t` adds, at `(p, q)`, the block product of the point's contracted block. -/
theorem step_apply (c : Dev nD) (t : Fin cfg1.N) (xs : Vec Ideal S2048x1024 .f32) (p : Fin 2048) (q : Fin 1024) :
    k1_pay2 (F := Ideal) (iblk V c 0 t) (iblk V c 1 t) xs (ix2 p q)
      = xs (ix2 p q) + blockTerm (V c main_v0) (V c main_arg1) (t.val / 16 * 2048 + p.val) (t.val / 4 % 4 * 1024 + q.val) (t.val % 4) := by
  refine (pay1_acc _ _ xs p q).trans ?_
  exact congrArg (xs (ix2 p q) + ·) (Finset.sum_congr rfl fun j _ => congrArg₂ (· * ·) (read_x V c t p j) (read_w V c t q j))

/-- Where the contracted block is the first, the accumulator ends at that block's product alone. -/
theorem acc_first_apply (c : Dev nD) (t : Fin cfg1.N) (h0 : t.val % 4 = 0) (p : Fin 2048) (q : Fin 1024) :
    accAt V c t.val t.isLt (ix2 p q)
      = blockTerm (V c main_v0) (V c main_arg1) (t.val / 16 * 2048 + p.val) (t.val / 4 % 4 * 1024 + q.val) (t.val % 4) := by
  have h1 : ¬t.val % 4 = 3 := by omega
  refine (congrFun ((accAt_first V c t h0 h1).trans (accFirst_eq ..)) (ix2 p q)).trans ?_
  refine (step_apply V c t _ p q).trans ?_
  rw [pay1_zero, zero_add]

/-- Elsewhere it ends at what the point before left plus the point's block product. -/
theorem acc_later_apply (c : Dev nD) (t : Fin cfg1.N) (h0 : ¬t.val % 4 = 0) (p : Fin 2048) (q : Fin 1024) :
    accAt V c t.val t.isLt (ix2 p q)
      = accBefore V c t (ix2 p q)
        + blockTerm (V c main_v0) (V c main_arg1) (t.val / 16 * 2048 + p.val) (t.val / 4 % 4 * 1024 + q.val) (t.val % 4) := by
  by_cases h1 : t.val % 4 = 3
  · exact (congrFun ((accAt_last V c t h0 h1).trans (accLast_eq ..)) (ix2 p q)).trans (step_apply V c t _ p q)
  · exact (congrFun ((accAt_mid V c t h0 h1).trans (accMid_eq ..)) (ix2 p q)).trans (step_apply V c t _ p q)

/-- The accumulator after point `n`, at `(p, q)`: the block products of the contracted blocks `0 … n % 4`. The row and
    column blocks do not move while the contracted block runs. -/
theorem acc_eq (c : Dev nD) : ∀ (n : ℕ) (h : n < cfg1.N) (p : Fin 2048) (q : Fin 1024),
    accAt V c n h (ix2 p q)
      = ∑ kb ∈ Finset.range (n % 4 + 1), blockTerm (V c main_v0) (V c main_arg1) (n / 16 * 2048 + p.val) (n / 4 % 4 * 1024 + q.val) kb
  | 0, h, p, q => by
    refine (acc_first_apply V c ⟨0, h⟩ rfl p q).trans ?_
    exact (Finset.sum_range_one _).symm
  | n + 1, h, p, q => by
    by_cases h0 : (n + 1) % 4 = 0
    · refine (acc_first_apply V c ⟨n + 1, h⟩ h0 p q).trans ?_
      show blockTerm _ _ _ _ ((n + 1) % 4) = _
      rw [h0]
      exact (Finset.sum_range_one _).symm
    · refine (acc_later_apply V c ⟨n + 1, h⟩ h0 p q).trans ?_
      show accAt V c n _ (ix2 p q) + blockTerm _ _ ((n + 1) / 16 * 2048 + p.val) ((n + 1) / 4 % 4 * 1024 + q.val) ((n + 1) % 4) = _
      rw [acc_eq c n _ p q]
      have e1 : (n + 1) / 16 = n / 16 := by omega
      have e2 : (n + 1) / 4 % 4 = n / 4 % 4 := by omega
      have e3 : (n + 1) % 4 = n % 4 + 1 := by omega
      rw [e1, e2, e3]
      exact (Finset.sum_range_succ _ _).symm

/-- Over all four contracted blocks the block products add up to the whole row product. -/
theorem full_sum (X : S8192x4096.Idx → EReal) (W : S4096x4096.Idx → EReal) (r : Fin 8192) (o : Fin 4096) :
    ∑ kb ∈ Finset.range 4, blockTerm X W r.val o.val kb = ∑ k : Fin 4096, X (ix2 r k) * W (ix2 o k) := by
  refine Eq.trans ?_ (Cert.LoraSpec.sum_blocks fun k => X (ix2 r k) * W (ix2 o k)).symm
  refine (Fin.sum_univ_eq_sum_range (fun kb => blockTerm X W r.val o.val kb) 4).symm.trans ?_
  refine Finset.sum_congr rfl fun kb _ => Finset.sum_congr rfl fun j _ => ?_
  exact congrArg₂ (· * ·) (at2_val X r ⟨kb.val * 1024 + j.val, by omega⟩) (at2_val W o ⟨kb.val * 1024 + j.val, by omega⟩)

/-! ## The arrays and the blocks at their literal types -/

abbrev aX (c : Dev nD) : S8192x4096.Idx → EReal := V c main_v0
abbrev aW (c : Dev nD) : S4096x4096.Idx → EReal := V c main_arg1
abbrev aXB (c : Dev nD) : S8192x32.Idx → EReal := V c main_v2
abbrev aA (c : Dev nD) : S4096x32.Idx → EReal := V c main_arg3
abbrev aBias (c : Dev nD) : S1x4096.Idx → EReal := V c main_v1
abbrev bXB (c : Dev nD) (t : Fin cfg1.N) : S2048x32.Idx → EReal := iblk V c 2 t
abbrev bA (c : Dev nD) (t : Fin cfg1.N) : S1024x32.Idx → EReal := iblk V c 3 t
abbrev bBias (c : Dev nD) (t : Fin cfg1.N) : S1x1024.Idx → EReal := iblk V c 4 t

/-! ## What a flushing point stores -/

theorem lt64 (t : Fin cfg1.N) : t.val < 64 := lt_of_lt_of_eq t.isLt (show cfg1.N = 64 from N_1)

/-- The array row under row `p` of point `t`'s blocks. -/
abbrev rowOf (t : Fin cfg1.N) (p : Fin 2048) : Fin 8192 := ⟨t.val / 16 * 2048 + p.val, by have := lt64 t; omega⟩
/-- The array column under column `q` of point `t`'s output block. -/
abbrev colOf (t : Fin cfg1.N) (q : Fin 1024) : Fin 4096 := ⟨t.val / 4 % 4 * 1024 + q.val, by omega⟩

/-- Where the contracted block is the last, the output block holds at `(p, q)` the result's element under it. -/
theorem out_apply (c : Dev nD) (t : Fin cfg1.N) (h3 : t.val % 4 = 3) (p : Fin 2048) (q : Fin 1024) :
    outAt V c t (ix2 p q) = (result V c : S8192x4096.Idx → EReal) (ix2 (rowOf t p) (colOf t q)) := by
  have h0 : ¬t.val % 4 = 0 := by omega
  have hacc : k1_pay2 (F := Ideal) (iblk V c 0 t) (iblk V c 1 t) (accBefore V c t) (ix2 p q)
      = ∑ k : Fin 4096, aX V c (ix2 (rowOf t p) k) * aW V c (ix2 (colOf t q) k) := by
    refine (congrFun ((accAt_last V c t h0 h3).trans (accLast_eq ..)) (ix2 p q)).symm.trans ?_
    refine (acc_eq V c t.val t.isLt p q).trans ?_
    rw [h3]
    exact full_sum _ _ (rowOf t p) (colOf t q)
  have hlo : (∑ r : Fin 32, bXB V c t (ix2 p r) * bA V c t (ix2 q r))
      = ∑ r : Fin 32, aXB V c (ix2 (rowOf t p) r) * aA V c (ix2 (colOf t q) r) :=
    Finset.sum_congr rfl fun r _ => congrArg₂ (· * ·) ((read_xb V c t p r).trans (at2_val _ (rowOf t p) r)) ((read_a V c t q r).trans (at2_val _ (colOf t q) r))
  have hb : bBias V c t (ix2 (0 : Fin 1) q) = aBias V c (ix2 (0 : Fin 1) (colOf t q)) :=
    (read_bias V c t q).trans (at2_val _ (0 : Fin 1) (colOf t q))
  refine (congrFun ((outAt_last V c t h0 h3).trans (outLast_eq ..)) (ix2 p q)).trans ?_
  refine (pay1_out _ _ _ _ p q).trans ?_
  exact congrArg₂ (· + ·) (congrArg₂ (· + ·) hacc (congrArg (· * Cert.LoraSpec.one) hlo)) hb

/-- What a flushing point writes back is its block of the result. -/
theorem flushed_eq (c : Dev nD) (t : Fin cfg1.N) (hf : (cfg1.win 5).flush t = true) :
    (dat (F := Ideal) V c).flushed 5 t = ((cfg1.win 5).blk t).view.read (Elt Ideal) (result V c) := by
  have h3 : t.val % 4 = 3 := (flush1_5 t).mp hf
  obtain ⟨-, -, -, -, -, -, -, -, -, -, e0, e1⟩ := idx_facts t
  show (cfg1.win 5).cut (grid1.coords t) ((dat (F := Ideal) V c).after 5 t) = _
  rw [after_out]
  funext j
  have hp : (j 0).val < 2048 := (j 0).isLt
  have hq : (j 1).val < 1024 := (j 1).isLt
  have hL : (cfg1.win 5).cut (grid1.coords t) (outAt V c t) j = outAt V c t (ix2 (⟨(j 0).val, hp⟩ : Fin 2048) (⟨(j 1).val, hq⟩ : Fin 1024)) :=
    congrArg (outAt V c t) (funext fun a => Fin.ext (by match a with | ⟨0, _⟩ => rfl | ⟨1, _⟩ => rfl))
  have hR : ((cfg1.win 5).blk t).view.read (Elt Ideal) (result V c) j
      = (result V c : S8192x4096.Idx → EReal) (ix2 (rowOf t ⟨(j 0).val, hp⟩) (colOf t ⟨(j 1).val, hq⟩)) := by
    show (result V c : S8192x4096.Idx → EReal) (((cfg1.win 5).blk t).view.emb j) = _
    refine congrArg (result V c : S8192x4096.Idx → EReal) (funext fun a => Fin.ext ?_)
    match a with
    | ⟨0, _⟩ => show win1_5.index t (0 : Fin 2) * 2048 + 1 * (j 0).val = t.val / 16 * 2048 + (j 0).val; rw [e0]; omega
    | ⟨1, _⟩ => show win1_5.index t (1 : Fin 2) * 1024 + 1 * (j 1).val = t.val / 4 % 4 * 1024 + (j 1).val; rw [e1]; omega
  exact hL.trans ((out_apply V c t h3 _ _).trans hR.symm)

/-! ## The output blocks tile the array -/

/-- Row `r`, column `o` lies in the output block of the point with row block `r / 2048`, column block `o / 1024` and the
    last contracted block. -/
theorem cover (i : S8192x4096.Idx) :
    ∃ t : Fin cfg1.N, (cfg1.win 5).flush t = true ∧ i ∈ ((cfg1.win 5).blk t).view.set := by
  have hr : (i 0).val < 8192 := (i 0).isLt
  have ho : (i 1).val < 4096 := (i 1).isLt
  have hN : cfg1.N = 64 := N_1
  have hlt : 16 * ((i 0).val / 2048) + 4 * ((i 1).val / 1024) + 3 < cfg1.N := by rw [hN]; omega
  obtain ⟨-, -, -, -, -, -, -, -, -, -, e0, e1⟩ := idx_facts ⟨16 * ((i 0).val / 2048) + 4 * ((i 1).val / 1024) + 3, hlt⟩
  refine ⟨⟨16 * ((i 0).val / 2048) + 4 * ((i 1).val / 1024) + 3, hlt⟩, (flush1_5 _).mpr (by show (16 * ((i 0).val / 2048) + 4 * ((i 1).val / 1024) + 3) % 4 = 3; omega), ?_⟩
  show i ∈ ((View.whole main_v3).slice (win1_5.rect ⟨16 * ((i 0).val / 2048) + 4 * ((i 1).val / 1024) + 3, hlt⟩)).set
  rw [View.set_slice_whole, Rect.mem_set_unit]
  intro a
  match a with
  | ⟨0, _⟩ =>
    show win1_5.index ⟨16 * ((i 0).val / 2048) + 4 * ((i 1).val / 1024) + 3, hlt⟩ (0 : Fin 2) * 2048 ≤ (i 0).val
      ∧ (i 0).val < win1_5.index ⟨16 * ((i 0).val / 2048) + 4 * ((i 1).val / 1024) + 3, hlt⟩ (0 : Fin 2) * 2048 + 2048
    rw [e0]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win1_5.index ⟨16 * ((i 0).val / 2048) + 4 * ((i 1).val / 1024) + 3, hlt⟩ (1 : Fin 2) * 1024 ≤ (i 1).val
      ∧ (i 1).val < win1_5.index ⟨16 * ((i 0).val / 2048) + 4 * ((i 1).val / 1024) + 3, hlt⟩ (1 : Fin 2) * 1024 + 1024
    rw [e1]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- The output array after the region's last point is the result. -/
theorem final_out (c : Dev nD) : (dat (F := Ideal) V c).arrAt 5 cfg1.N = result V c :=
  (dat (F := Ideal) V c).arrAt_eq_of_cover 5 (result V c) (flushed_eq V c) cover

end Cert.KernelIdeal.Fused

end
-- ==== Proof.KernelIdeal.HostReads.lean ====
/-
  The three reshapes of the kernel program's host code, read at one element, over any contents of the buffers.

  Before the two kernels run, the host flattens the input `[4, 2048, 4096]` to `[8192, 4096]` (row `r` of the flat
  array is batch `r / 2048`, position `r % 2048`) and gives the bias `[4096]` a leading unit axis; after them it
  unflattens the result `[8192, 4096]` back to `[4, 2048, 4096]` (batch `b`, position `s` is flat row
  `b · 2048 + s`). A reshape keeps the row-major position of every element, so each is read by comparing positions.
  Every buffer the first two operations do not write keeps its contents.
-/
import proofs.«107650_j28853590294649_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostReads

open Idealize.ShloMosaic Idealize.ShloMosaic.TcCoe Idealize.ShloMosaic.ValueIdx Cert.KernelIdeal Cert.KernelIdeal.Gen

variable {F : FTy → Type} [FloatOps F]

/-- After the first host stretch the flat input buffer holds the input's elements at the flat shape. -/
theorem v0_eq (W : Valuation τ sig (Elt F)) :
    (StableHlo.after (hostOps0 (F := F)) W (Proc.devRef .tc main_v0) : S8192x4096.Idx → Elt F .f32)
      = shapeCast S8192x4096 (W (Proc.devRef .tc main_arg0) : S4x2048x4096.Idx → Elt F .f32) shapeCasts_S4x2048x4096_S8192x4096 := by
  dsimp only [hostOps0]
  after_results
  rfl

/-- After the first host stretch the row-shaped bias buffer holds the bias's elements at the shape `[1, 4096]`. -/
theorem v1_eq (W : Valuation τ sig (Elt F)) :
    (StableHlo.after (hostOps0 (F := F)) W (Proc.devRef .tc main_v1) : S1x4096.Idx → Elt F .f32)
      = shapeCast S1x4096 (W (Proc.devRef .tc main_arg2) : S4096.Idx → Elt F .f32) shapeCasts_S4096_S1x4096 := by
  dsimp only [hostOps0]
  after_results
  rfl

/-- After the last host stretch the result buffer holds the flat result's elements at the shape `[4, 2048, 4096]`. -/
theorem v4_eq (W : Valuation τ sig (Elt F)) :
    (StableHlo.after (hostOps2 (F := F)) W (Proc.devRef .tc main_v4) : S4x2048x4096.Idx → Elt F .f32)
      = shapeCast S4x2048x4096 (W (Proc.devRef .tc main_v3) : S8192x4096.Idx → Elt F .f32) shapeCasts_S8192x4096_S4x2048x4096 := by
  dsimp only [hostOps2]
  after_results
  rfl

/-- The flat input at row `r`, column `k` is the input at batch `r / 2048`, position `r % 2048`, column `k`. -/
theorem flat_x (W : Valuation τ sig (Elt F)) (r : Fin 8192) (k : Fin 4096) :
    (StableHlo.after hostOps0 W (Proc.devRef .tc main_v0) : S8192x4096.Idx → Elt F .f32) (ix2 r k)
      = (W (Proc.devRef .tc main_arg0) : S4x2048x4096.Idx → Elt F .f32) (ix3 ⟨r.val / 2048, by omega⟩ ⟨r.val % 2048, by omega⟩ k) := by
  refine (congrFun (v0_eq W) (ix2 r k)).trans ?_
  refine shapeCast_apply _ shapeCasts_S4x2048x4096_S8192x4096 (ix2 r k) (ix3 ⟨r.val / 2048, by omega⟩ ⟨r.val % 2048, by omega⟩ k) ?_
  rw [Shape.rowMajor_val_three, Shape.rowMajor_val_two]
  show (r.val / 2048 * 2048 + r.val % 2048) * 4096 + k.val = r.val * 4096 + k.val
  have h := Nat.div_add_mod r.val 2048
  rw [Nat.mul_comm] at h
  rw [h]

/-- The row-shaped bias at `(0, o)` is the bias at `o`. -/
theorem row_bias (W : Valuation τ sig (Elt F)) (o : Fin 4096) :
    (StableHlo.after hostOps0 W (Proc.devRef .tc main_v1) : S1x4096.Idx → Elt F .f32) (ix2 (0 : Fin 1) o)
      = (W (Proc.devRef .tc main_arg2) : S4096.Idx → Elt F .f32) (ix1 o) := by
  refine (congrFun (v1_eq W) (ix2 (0 : Fin 1) o)).trans ?_
  exact shapeCast_a_1a_apply _ shapeCasts_S4096_S1x4096 (0 : Fin 1) o

/-- A buffer that is neither the flat input nor the row-shaped bias keeps its contents over the first host stretch. -/
theorem keep0 (W : Valuation τ sig (Elt F)) (b : Ref sig .tc) (hb : b ≠ main_v0) (hb' : b ≠ main_v1) :
    StableHlo.after hostOps0 W (Proc.devRef .tc b) = W (Proc.devRef .tc b) := by
  refine StableHlo.after_of_forall_not_mem (hostOps0 (F := F)) W fun op hop hw => ?_
  rcases List.mem_cons.mp hop with rfl | hop
  · exact hb (Proc.devRef_injective _ (Finset.mem_singleton.mp hw))
  · rcases List.mem_cons.mp hop with rfl | hop
    · exact hb' (Proc.devRef_injective _ (Finset.mem_singleton.mp hw))
    · exact absurd hop (List.not_mem_nil)

/-- The result at batch `b`, position `s`, column `o` is the flat result at row `b · 2048 + s`, column `o`. -/
theorem unflat_y (W : Valuation τ sig (Elt F)) (b : Fin 4) (s : Fin 2048) (o : Fin 4096) :
    (StableHlo.after hostOps2 W (Proc.devRef .tc main_v4) : S4x2048x4096.Idx → Elt F .f32) (ix3 b s o)
      = (W (Proc.devRef .tc main_v3) : S8192x4096.Idx → Elt F .f32) (ix2 ⟨b.val * 2048 + s.val, by omega⟩ o) := by
  refine (congrFun (v4_eq W) (ix3 b s o)).trans ?_
  refine shapeCast_apply _ shapeCasts_S8192x4096_S4x2048x4096 (ix3 b s o) (ix2 ⟨b.val * 2048 + s.val, by omega⟩ o) ?_
  rw [Shape.rowMajor_val_three, Shape.rowMajor_val_two]
  rfl

end Cert.KernelIdeal.HostReads

end
-- ==== Proof.KernelIdeal.Result.lean ====
/-
  The assembly over the extended reals: the program's result buffer at the last boundary is the kernel's arrangement of the
  five arguments as launched.

  The last reshape reads the fused region's output array at flat row b · 2048 + s. That array is the fused region's closed
  form over the buffers it was entered with: the flat input (which the projection region only reads, and which the first
  reshape wrote from the input), the weight matrix and the two rank-32 factors (as launched: no reshape and no region
  writes them), the row-shaped bias (the second reshape of the bias), and the projection region's output array, itself the
  product of the flat input with the rank-32 factor. Reading the flat input and the row-shaped bias back entry by entry
  turns the two closed forms into the kernel's arrangement, sum by sum; no algebra is involved.
-/
import proofs.«107650_j28853590294649_1_alg».proof.Proof.KernelIdeal.Whole
import proofs.«107650_j28853590294649_1_alg».proof.Proof.KernelIdeal.Xb.Value
import proofs.«107650_j28853590294649_1_alg».proof.Proof.KernelIdeal.Fused.Value
import proofs.«107650_j28853590294649_1_alg».proof.Proof.KernelIdeal.HostReads
import proofs.«107650_j28853590294649_1_alg».proof.Proof.LoraSpec

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Whole
open scoped BigOperators

variable (m : (ℓ : Loc nD τ sig) → Buf (Elt Ideal) ℓ) (ρ : Dev nD → PrngReg)

/-! ## The buffers the fused region reads, walked back to the launch -/

/-- The fused region's output array after it: its closed form over the buffers it was entered with. -/
theorem out_v3 (c : Dev nD) :
    B3 m ρ c (Proc.devRef .tc main_v3)
      = Fused.yOf (In1 m ρ c main_v0) (In1 m ρ c main_arg1) (In1 m ρ c main_v2) (In1 m ρ c main_arg3) (In1 m ρ c main_v1) :=
  (B3_arr m ρ c 5).trans (Fused.final_out (In1 m ρ) c)

/-- The projection region only reads the flat input. -/
theorem in1_v0 (c : Dev nD) : In1 m ρ c main_v0 = In0 m ρ c main_v0 :=
  (B2_arr m ρ c 0).trans (((Xb.dat (In0 m ρ) c).arrAt_in 0 rfl _).trans (Xb.A_eq (In0 m ρ) c 0))

/-- The projection region's output array after it: the product with the rank-32 factor. -/
theorem in1_v2 (c : Dev nD) : In1 m ρ c main_v2 = Xb.xbOf (In0 m ρ c main_v0) (In0 m ρ c main_arg4) :=
  (B2_arr m ρ c 2).trans (Xb.final_out (In0 m ρ) c)

/-- The row-shaped bias is no array of the projection region. -/
theorem in1_v1 (c : Dev nD) : In1 m ρ c main_v1 = In0 m ρ c main_v1 :=
  B2_of_ne m ρ c main_v1 (by decide)

/-- The weight matrix reaches the fused region as launched. -/
theorem in1_arg1 (c : Dev nD) : In1 m ρ c main_arg1 = m ((c : Thread nD τ).loc main_arg1) :=
  (B2_of_ne m ρ c main_arg1 (by decide)).trans ((HostReads.keep0 (B0 m ρ c) main_arg1 (by decide) (by decide)).trans rfl)

/-- The other rank-32 factor reaches the fused region as launched. -/
theorem in1_arg3 (c : Dev nD) : In1 m ρ c main_arg3 = m ((c : Thread nD τ).loc main_arg3) :=
  (B2_of_ne m ρ c main_arg3 (by decide)).trans ((HostReads.keep0 (B0 m ρ c) main_arg3 (by decide) (by decide)).trans rfl)

/-- The rank-32 factor reaches the projection region as launched. -/
theorem in0_arg4 (c : Dev nD) : In0 m ρ c main_arg4 = m ((c : Thread nD τ).loc main_arg4) :=
  (HostReads.keep0 (B0 m ρ c) main_arg4 (by decide) (by decide)).trans rfl

/-- The flat input at row b · 2048 + s is the input at batch b, position s. -/
theorem in0_v0_apply (c : Dev nD) (b : Fin 4) (s : Fin 2048) (k : Fin 4096) (hr : b.val * 2048 + s.val < 8192) :
    (In0 m ρ c main_v0 : S8192x4096.Idx → EReal) (ix2 ⟨b.val * 2048 + s.val, hr⟩ k)
      = (m ((c : Thread nD τ).loc main_arg0) : S4x2048x4096.Idx → EReal) (ix3 b s k) := by
  refine (HostReads.flat_x (B0 m ρ c) ⟨b.val * 2048 + s.val, hr⟩ k).trans ?_
  show (m ((c : Thread nD τ).loc main_arg0) : S4x2048x4096.Idx → EReal) _ = _
  refine congrArg _ ?_
  funext d
  match d with
  | ⟨0, _⟩ => exact Fin.ext (show (b.val * 2048 + s.val) / 2048 = b.val by omega)
  | ⟨1, _⟩ => exact Fin.ext (show (b.val * 2048 + s.val) % 2048 = s.val by omega)
  | ⟨2, _⟩ => rfl

/-- The row-shaped bias at (0, o) is the bias at o. -/
theorem in0_v1_apply (c : Dev nD) (o : Fin 4096) :
    (In0 m ρ c main_v1 : S1x4096.Idx → EReal) (ix2 (0 : Fin 1) o) = (m ((c : Thread nD τ).loc main_arg2) : S4096.Idx → EReal) (ix1 o) :=
  (HostReads.row_bias (B0 m ρ c) o).trans rfl

/-! ## The result -/

/-- The fused region's closed form over the projection's, at flat row b · 2048 + s, is the kernel's arrangement at
    batch b, position s, once the flat input and the row-shaped bias are read back entry by entry. -/
theorem form_eq (X : S8192x4096.Idx → EReal) (x : S4x2048x4096.Idx → EReal) (W : S4096x4096.Idx → EReal)
    (bias2 : S1x4096.Idx → EReal) (bias : S4096.Idx → EReal) (A B : S4096x32.Idx → EReal)
    (b : Fin 4) (s : Fin 2048) (o : Fin 4096) (hr : b.val * 2048 + s.val < 8192)
    (hX : ∀ k : Fin 4096, X (ix2 ⟨b.val * 2048 + s.val, hr⟩ k) = x (ix3 b s k))
    (hb : bias2 (ix2 (0 : Fin 1) o) = bias (ix1 o)) :
    Fused.yOf X W (Xb.xbOf X B) A bias2 (ix2 ⟨b.val * 2048 + s.val, hr⟩ o) = Cert.LoraSpec.kerForm x W bias A B (ix3 b s o) := by
  show ((∑ k : Fin 4096, X (ix2 ⟨b.val * 2048 + s.val, hr⟩ k) * W (ix2 o k))
        + (∑ q : Fin 32, (∑ k : Fin 4096, X (ix2 ⟨b.val * 2048 + s.val, hr⟩ k) * B (ix2 k q)) * A (ix2 o q)) * Cert.LoraSpec.one)
      + bias2 (ix2 (0 : Fin 1) o)
    = ((∑ k : Fin 4096, x (ix3 b s k) * W (ix2 o k))
        + (∑ q : Fin 32, (∑ k : Fin 4096, x (ix3 b s k) * B (ix2 k q)) * A (ix2 o q)) * Cert.LoraSpec.one)
      + bias (ix1 o)
  simp only [hX, hb]

/-- The result buffer at the last boundary is the kernel's arrangement of the five arguments as launched. -/
theorem result_eq (c : Dev nD) :
    (B4 m ρ c (Proc.devRef .tc main_v4) : S4x2048x4096.Idx → EReal)
      = Cert.LoraSpec.kerForm (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨b, s, o, rfl⟩ : ∃ (b : Fin 4) (s : Fin 2048) (o : Fin 4096), j = ix3 b s o := ⟨j 0, j 1, j 2, eq_ix3 j⟩
  have hr : b.val * 2048 + s.val < 8192 := by omega
  refine (HostReads.unflat_y (B3 m ρ c) b s o).trans ?_
  refine (congrFun (out_v3 m ρ c) (ix2 ⟨b.val * 2048 + s.val, hr⟩ o)).trans ?_
  rw [in1_v0, in1_arg1, in1_v2, in1_arg3, in1_v1, in0_arg4]
  exact form_eq _ _ _ _ _ _ _ b s o hr (fun k => in0_v0_apply m ρ c b s k hr) (in0_v1_apply m ρ c o)

end Cert.KernelIdeal.Result

end
-- ==== Proof.RefValue.lean ====
/-
  The reference program's value is the reference closed form.

  Read one element at a time: the last addition adds the bias, broadcast along the two leading axes, to a product
  contracted over the 4096 input features; the right factor of that product is the weight matrix corrected by the
  rank-32 product of the two low-rank factors (the second one transposed), scaled by the float word of 1.0. Each
  composed index function is the index built from the coordinates it names, so the element is the closed form's.
-/
import proofs.«107650_j28853590294649_1_alg».proof.Proof.Gen.ReferenceIdeal.Read
import proofs.«107650_j28853590294649_1_alg».proof.Proof.LoraSpec

noncomputable section

namespace Cert.RefValue

open Cert.ReferenceIdeal Cert.ReferenceIdeal.Read Idealize.ShloMosaic Idealize.ShloMosaic.ValueIdx

/-- The left operand of the outer contraction is read at row `(b, s)`, column `k`. -/
theorem lidx5_eq (i : S4x2048x4096.Idx) (k : Fin 4096) : lidx_main_v5 i k = ix3 (i 0) (i 1) k :=
  funext fun a => Fin.ext (by match a with | ⟨0, _⟩ => rfl | ⟨1, _⟩ => rfl | ⟨2, _⟩ => rfl)

/-- The right operand of the outer contraction is read at row `o`, column `k`. -/
theorem ridx5_eq (i : S4x2048x4096.Idx) (k : Fin 4096) : ridx_main_v5 i k = ix2 (i 2) k :=
  funext fun a => Fin.ext (by match a with | ⟨0, _⟩ => rfl | ⟨1, _⟩ => rfl)

/-- Inside the corrected weight at `(o, k)`, the first low-rank factor is read at row `o`, column `r`. -/
theorem lidx1_ridx5_eq (i : S4x2048x4096.Idx) (k : Fin 4096) (r : Fin 32) :
    lidx_main_v1 (ridx_main_v5 i k) r = ix2 (i 2) r :=
  funext fun a => Fin.ext (by match a with | ⟨0, _⟩ => rfl | ⟨1, _⟩ => rfl)

/-- Inside the corrected weight at `(o, k)`, the second low-rank factor, transposed, is read at row `k`, column `r`. -/
theorem idx0_ridx1_ridx5_eq (i : S4x2048x4096.Idx) (k : Fin 4096) (r : Fin 32) :
    idx_main_v0 (ridx_main_v1 (ridx_main_v5 i k) r) = ix2 k r :=
  funext fun a => Fin.ext (by match a with | ⟨0, _⟩ => rfl | ⟨1, _⟩ => rfl)

/-- The bias, broadcast twice, is read at `o`. -/
theorem idx6_idx7_eq (i : S4x2048x4096.Idx) : idx_main_v6 (idx_main_v7 i) = ix1 (i 2) :=
  funext fun a => Fin.ext (by match a with | ⟨0, _⟩ => rfl)

theorem ref_is_refForm (x0 : (⟨Cert.ReferenceIdeal.S4x2048x4096, .f32⟩ : BufTy).Contents (Elt Ideal)) (x1 : (⟨Cert.ReferenceIdeal.S4096x4096, .f32⟩ : BufTy).Contents (Elt Ideal)) (x2 : (⟨Cert.ReferenceIdeal.S4096, .f32⟩ : BufTy).Contents (Elt Ideal)) (x3 x4 : (⟨Cert.ReferenceIdeal.S4096x32, .f32⟩ : BufTy).Contents (Elt Ideal)) :
    Cert.ReferenceIdeal.Read.val_main_v8 (F := Ideal) x0 x1 x2 x3 x4 = Cert.LoraSpec.refForm x0 x1 x2 x3 x4 := by
  funext i
  rw [val_main_v8_apply, val_main_v5_apply, val_main_v7_apply, val_main_v6_apply]
  -- every operation under the outer sum at its element
  simp only [val_main_v4_apply, val_main_v3_apply, val_main_v2_apply, val_main_cst_apply, val_main_v1_apply,
    val_main_v0_apply, Ideal.addf_def, Ideal.mulf_def, Ideal.ofBits_def]
  -- the composed index functions, innermost compositions first
  simp only [lidx1_ridx5_eq, idx0_ridx1_ridx5_eq, lidx5_eq, idx6_idx7_eq]
  simp only [ridx5_eq]
  simp only [Cert.LoraSpec.refForm, Cert.LoraSpec.one]
  rfl

end Cert.RefValue

end
-- ==== Proof.FiniteInputs.lean ====
/-
  Finiteness of the inputs, read back from the printed precondition: the predicate is the conjunction of five
  "every |x| < +inf" reductions, so when it is 1 every entry of every input is a real number.
-/
import proofs.«107650_j28853590294649_1_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

/-- The pattern 0x7F800000 denotes +inf. -/
theorem inf_pattern : Ideal.ofBits .f32 0x7F800000#32 = (⊤ : EReal) := by
  simp [Ideal.ofBits, Ideal.ieee]

/-- An extended real whose absolute value is below +inf is a real. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- One input: its `jnp.all (|x| < +inf)` being 1 makes every entry a real. -/
theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu ix0 = 1#1) :
    ∀ i, ∃ r : ℝ, a i = (r : EReal) := fun i =>
  real_of_abs_lt_inf (a i) (Host.reduce_andi_all _ init hr hu ix0 e i)

theorem reals_of_pre [Cert.Pre_finite_inputs.Facts]
    (a0 : FVec Ideal Cert.Pre_finite_inputs.S4x2048x4096 .f32) (a1 : FVec Ideal Cert.Pre_finite_inputs.S4096x4096 .f32) (a2 : FVec Ideal Cert.Pre_finite_inputs.S4096 .f32) (a3 a4 : FVec Ideal Cert.Pre_finite_inputs.S4096x32 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) := by
  have h0 := congrFun h ix0
  dsimp only [fn, fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨reals_of_all a0 _ _ _ _ h0', reals_of_all a1 _ _ _ _ h1, reals_of_all a2 _ _ _ _ h2,
    reals_of_all a3 _ _ _ _ h3, reals_of_all a4 _ _ _ _ h4⟩

end Cert.FiniteInputs

end
-- ==== Proof.lean ====
/-
  A dense linear layer with a rank-32 correction, y = x·(W + (A·Bᵀ)·1)ᵀ + bias, computed by two kernel regions — the
  projection xb = x·B, then x·Wᵀ + (xb·Aᵀ)·1 + bias — against the reference that corrects the weight matrix first.

  Frames. Each kernel region accumulates its products over four blocks of the contracted axis in a scratch buffer it
  carries from grid point to grid point, and stores its output block only at the last of the four; the region's invariant
  names the accumulator's contents between points, and the program is launched as a list of segments (two reshapes, the
  two regions, one reshape), the same text for the word-level program and for its idealization. The reference is a
  straight line of host operations.

  Values. At the ideal instance the accumulator after the k-th block is the partial sum over the first k blocks, so each
  output array ends at the full sum over the contracted axis; folding the reshapes in, the kernel's result is
  Σ_k x·W + (Σ_r (Σ_k x·B)·A)·1 + bias. The reference's is Σ_k x·(W + (Σ_r A·B)·1) + bias. On real inputs the two agree
  by distributivity and an exchange of the two sums; the precondition says every input entry is a real number.
-/
import proofs.«107650_j28853590294649_1_alg».proof.Defs
import proofs.«107650_j28853590294649_1_alg».proof.Proof.Gen.Kernel
import proofs.«107650_j28853590294649_1_alg».proof.Proof.Gen.KernelIdeal
import proofs.«107650_j28853590294649_1_alg».proof.Proof.Gen.ReferenceIdeal
import proofs.«107650_j28853590294649_1_alg».proof.Proof.Gen.Pre_finite_inputs
import proofs.«107650_j28853590294649_1_alg».proof.Proof.Gen.ReferenceIdeal.Run
import proofs.«107650_j28853590294649_1_alg».proof.Proof.Gen.ReferenceIdeal.Read
import proofs.«107650_j28853590294649_1_alg».proof.Proof.Kernel.Whole
import proofs.«107650_j28853590294649_1_alg».proof.Proof.KernelIdeal.Whole
import proofs.«107650_j28853590294649_1_alg».proof.Proof.KernelIdeal.Result
import proofs.«107650_j28853590294649_1_alg».proof.Proof.RefValue
import proofs.«107650_j28853590294649_1_alg».proof.Proof.FiniteInputs
import proofs.«107650_j28853590294649_1_alg».proof.Proof.LoraSpec
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Whole.frame m ρ

/-- Its idealization runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Whole.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the kernel form of the arguments: the kernel by its run read at the result buffer,
    the reference by its run, its term read as the reference form, and the law that joins the two forms on real inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.LoraSpec.kerForm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Whole.run_all (F := Ideal) m ρ)
    exact ⟨(h c _ (Cert.KernelIdeal.Whole.mem_uc Cert.KernelIdeal.main_v4 (by decide))).trans (Cert.KernelIdeal.Result.result_eq m ρ c),
      (h c _ (Cert.KernelIdeal.Whole.mem_uc Cert.KernelIdeal.main_arg0 (by decide))).trans (Cert.KernelIdeal.Whole.end_main_arg0 m ρ c),
      (h c _ (Cert.KernelIdeal.Whole.mem_uc Cert.KernelIdeal.main_arg1 (by decide))).trans (Cert.KernelIdeal.Whole.end_main_arg1 m ρ c),
      (h c _ (Cert.KernelIdeal.Whole.mem_uc Cert.KernelIdeal.main_arg2 (by decide))).trans (Cert.KernelIdeal.Whole.end_main_arg2 m ρ c),
      (h c _ (Cert.KernelIdeal.Whole.mem_uc Cert.KernelIdeal.main_arg3 (by decide))).trans (Cert.KernelIdeal.Whole.end_main_arg3 m ρ c),
      (h c _ (Cert.KernelIdeal.Whole.mem_uc Cert.KernelIdeal.main_arg4 (by decide))).trans (Cert.KernelIdeal.Whole.end_main_arg4 m ρ c)⟩
  · refine (θ_run Cert.ReferenceIdeal.defs _ _).mono (fun r h c => ⟨(h c).1.trans ?_, (h c).2⟩)
      (Cert.ReferenceIdeal.Value.run (F := Ideal) m' ρ')
    obtain ⟨h0, h1, -, h3, h4⟩ := Cert.FiniteInputs.reals_of_pre _ _ _ _ _ (hpre c)
    rw [Cert.ReferenceIdeal.Read.val_main_v8_eq, Cert.RefValue.ref_is_refForm, (hagree c).1, (hagree c).2.1, (hagree c).2.2.1,
      (hagree c).2.2.2.1, (hagree c).2.2.2.2]
    exact (Cert.LoraSpec.ker_eq_ref _ _ _ _ _ h0 h1 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
